-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1_1)) (v1 : (c : Dev Cert.KernelIdeal.nD) → Buf (Elt Ideal) ((c.tc : Thread Cert.KernelIdeal.nD Cert.KernelIdeal.τ).loc Cert.KernelIdeal.main_v1_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_1) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x256 : Shape := ⟨2, ![1024, 256]⟩
abbrev S1024x128 : Shape := ⟨2, ![1024, 128]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x256 : S_.BroadcastsInDim S1024x256 (![] : Fin 0 → Fin S1024x256.rank)
  reducesTo_S1024x256_S_d0_1 : S1024x256.ReducesTo [0, 1] S_
  bcast_S_S1024x128 : S_.BroadcastsInDim S1024x128 (![] : Fin 0 → Fin S1024x128.rank)
  reducesTo_S1024x128_S_d0_1 : S1024x128.ReducesTo [0, 1] S_

variable [Facts]

def fn_part1 {F : FTy → Type} [FloatOps F] (main_arg4 : FVec F S1024x256 .f32) (main_arg5 : FVec F S1024x128 .f32) (main_v13 : IVec S_ 1) (main_v16 : IVec S1024x256 1) : IVec S_ 1 :=
  let main_c_5 : IVec S_ 1 := constantI S_ 1 1#1
  let main_v17 : IVec S_ 1 := (fun x v => Host.reduce IntOp.andi x v reducesTo_S1024x256_S_d0_1 h_S_) main_v16 main_c_5
  let main_v18 : IVec S_ 1 := andi main_v13 main_v17
  let main_v19 : FVec F S1024x256 .f32 := Host.absf main_arg4
  let main_cst_6 : FVec F S_ .f32 := constant S_ .f32 0x7F800000#32
  let main_v20 : FVec F S1024x256 .f32 := broadcastInDim S1024x256 ![] bcast_S_S1024x256 main_cst_6
  let main_v21 : IVec S1024x256 1 := cmpf .olt main_v19 main_v20
  let main_c_7 : IVec S_ 1 := constantI S_ 1 1#1
  let main_v22 : IVec S_ 1 := (fun x v => Host.reduce IntOp.andi x v reducesTo_S1024x256_S_d0_1 h_S_) main_v21 main_c_7
  let main_v23 : IVec S_ 1 := andi main_v18 main_v22
  let main_v24 : FVec F S1024x128 .f32 := Host.absf main_arg5
  let main_cst_8 : FVec F S_ .f32 := constant S_ .f32 0x7F800000#32
  let main_v25 : FVec F S1024x128 .f32 := broadcastInDim S1024x128 ![] bcast_S_S1024x128 main_cst_8
  let main_v26 : IVec S1024x128 1 := cmpf .olt main_v24 main_v25
  let main_c_9 : IVec S_ 1 := constantI S_ 1 1#1
  let main_v27 : IVec S_ 1 := (fun x v => Host.reduce IntOp.andi x v reducesTo_S1024x128_S_d0_1 h_S_) main_v26 main_c_9
  let main_v28 : IVec S_ 1 := andi main_v23 main_v27
  main_v28

def fn {F : FTy → Type} [FloatOps F] (main_arg0 : FVec F S8x2048x1024 .f32) (main_arg1 : FVec F S8x2048x1024 .f32) (main_arg2 : FVec F S8x2048x1024 .f32) (main_arg3 : FVec F S1024x256 .f32) (main_arg4 : FVec F S1024x256 .f32) (main_arg5 : FVec F S1024x128 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x2048x1024 .f32 := Host.absf main_arg1
  let main_cst_0 : FVec F S_ .f32 := constant S_ .f32 0x7F800000#32
  let main_v5 : FVec F S8x2048x1024 .f32 := broadcastInDim S8x2048x1024 ![] bcast_S_S8x2048x1024 main_cst_0
  let main_v6 : IVec S8x2048x1024 1 := cmpf .olt main_v4 main_v5
  let main_c_1 : IVec S_ 1 := constantI S_ 1 1#1
  let main_v7 : IVec S_ 1 := (fun x v => Host.reduce IntOp.andi x v reducesTo_S8x2048x1024_S_d0_1_2 h_S_) main_v6 main_c_1
  let main_v8 : IVec S_ 1 := andi main_v3 main_v7
  let main_v9 : FVec F S8x2048x1024 .f32 := Host.absf main_arg2
  let main_cst_2 : FVec F S_ .f32 := constant S_ .f32 0x7F800000#32
  let main_v10 : FVec F S8x2048x1024 .f32 := broadcastInDim S8x2048x1024 ![] bcast_S_S8x2048x1024 main_cst_2
  let main_v11 : IVec S8x2048x1024 1 := cmpf .olt main_v9 main_v10
  let main_c_3 : IVec S_ 1 := constantI S_ 1 1#1
  let main_v12 : IVec S_ 1 := (fun x v => Host.reduce IntOp.andi x v reducesTo_S8x2048x1024_S_d0_1_2 h_S_) main_v11 main_c_3
  let main_v13 : IVec S_ 1 := andi main_v8 main_v12
  let main_v14 : FVec F S1024x256 .f32 := Host.absf main_arg3
  let main_cst_4 : FVec F S_ .f32 := constant S_ .f32 0x7F800000#32
  let main_v15 : FVec F S1024x256 .f32 := broadcastInDim S1024x256 ![] bcast_S_S1024x256 main_cst_4
  let main_v16 : IVec S1024x256 1 := cmpf .olt main_v14 main_v15
  fn_part1 (F := F) main_arg4 main_arg5 main_v13 main_v16
-- ==== Kernel.lean ====
abbrev S8x2048x1024 : Shape := ⟨3, ![8, 2048, 1024]⟩
abbrev S1024x256 : Shape := ⟨2, ![1024, 256]⟩
abbrev S1024x128 : Shape := ⟨2, ![1024, 128]⟩
abbrev S8x2048x256 : Shape := ⟨3, ![8, 2048, 256]⟩
abbrev S8x2048x128 : Shape := ⟨3, ![8, 2048, 128]⟩
abbrev S1x1024x1024 : Shape := ⟨3, ![1, 1024, 1024]⟩
abbrev S1x1024x256 : Shape := ⟨3, ![1, 1024, 256]⟩
abbrev S1x1024x128 : Shape := ⟨3, ![1, 1024, 128]⟩
abbrev S1024x1024 : Shape := ⟨2, ![1024, 1024]⟩
abbrev S8x2048x2048 : Shape := ⟨3, ![8, 2048, 2048]⟩
abbrev S1x512x256 : Shape := ⟨3, ![1, 512, 256]⟩
abbrev S1x2048x256 : Shape := ⟨3, ![1, 2048, 256]⟩
abbrev S1x2048x128 : Shape := ⟨3, ![1, 2048, 128]⟩
abbrev S1x512x2048 : Shape := ⟨3, ![1, 512, 2048]⟩
abbrev S1x512x128 : Shape := ⟨3, ![1, 512, 128]⟩
abbrev S512x256 : Shape := ⟨2, ![512, 256]⟩
abbrev S2048x256 : Shape := ⟨2, ![2048, 256]⟩
abbrev S2048x128 : Shape := ⟨2, ![2048, 128]⟩
abbrev S512x2048 : Shape := ⟨2, ![512, 2048]⟩
abbrev S512 : Shape := ⟨1, ![512]⟩
abbrev S512x1 : Shape := ⟨2, ![512, 1]⟩
abbrev S512x128 : Shape := ⟨2, ![512, 128]⟩

abbrev nBuf : Space → Nat
  | .hbm => 11
  | .vmem => 25
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x1024, .f32⟩
  | .hbm, ⟨3, _⟩ => ⟨S1024x256, .f32⟩
  | .hbm, ⟨4, _⟩ => ⟨S1024x256, .f32⟩
  | .hbm, ⟨5, _⟩ => ⟨S1024x128, .f32⟩
  | .hbm, ⟨6, _⟩ => ⟨S8x2048x256, .bf16⟩
  | .hbm, ⟨7, _⟩ => ⟨S8x2048x256, .bf16⟩
  | .hbm, ⟨8, _⟩ => ⟨S8x2048x128, .f32⟩
  | .hbm, ⟨9, _⟩ => ⟨S8x2048x2048, .f32⟩
  | .hbm, ⟨10, _⟩ => ⟨S8x2048x128, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1024x256, .f32⟩
  | .local _ .vmem, ⟨7, _⟩ => ⟨S1024x256, .f32⟩
  | .local _ .vmem, ⟨8, _⟩ => ⟨S1024x128, .f32⟩
  | .local _ .vmem, ⟨9, _⟩ => ⟨S1x1024x256, .bf16⟩
  | .local _ .vmem, ⟨10, _⟩ => ⟨S1x1024x256, .bf16⟩
  | .local _ .vmem, ⟨11, _⟩ => ⟨S1x1024x256, .bf16⟩
  | .local _ .vmem, ⟨12, _⟩ => ⟨S1x1024x256, .bf16⟩
  | .local _ .vmem, ⟨13, _⟩ => ⟨S1x1024x128, .f32⟩
  | .local _ .vmem, ⟨14, _⟩ => ⟨S1x1024x128, .f32⟩
  | .local _ .vmem, ⟨15, _⟩ => ⟨S1x512x256, .bf16⟩
  | .local _ .vmem, ⟨16, _⟩ => ⟨S1x512x256, .bf16⟩
  | .local _ .vmem, ⟨17, _⟩ => ⟨S1x2048x256, .bf16⟩
  | .local _ .vmem, ⟨18, _⟩ => ⟨S1x2048x256, .bf16⟩
  | .local _ .vmem, ⟨19, _⟩ => ⟨S1x2048x128, .f32⟩
  | .local _ .vmem, ⟨20, _⟩ => ⟨S1x2048x128, .f32⟩
  | .local _ .vmem, ⟨21, _⟩ => ⟨S1x512x2048, .f32⟩
  | .local _ .vmem, ⟨22, _⟩ => ⟨S1x512x2048, .f32⟩
  | .local _ .vmem, ⟨23, _⟩ => ⟨S1x512x128, .f32⟩
  | .local _ .vmem, ⟨24, _⟩ => ⟨S1x512x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v1_0 : Ref sig .tc := ⟨.hbm, 9, rfl⟩
abbrev main_v1_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg4_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem3_1 : DmaSem sig := 22
abbrev cc1_sem4_0 : DmaSem sig := 23
abbrev cc1_sem4_1 : DmaSem sig := 24

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev grid1 : Pipeline.Grid := ⟨2, ![8, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x512x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1024x256_S1024x256_0_0 : ∀ a, (![0, 0] : Fin 2 → Nat) a + S1024x256.size a ≤ S1024x256.size a
  h_S1024x256 : 0 < S1024x256.numel
  inb_S1024x128_S1024x128_0_0 : ∀ a, (![0, 0] : Fin 2 → Nat) a + S1024x128.size a ≤ S1024x128.size a
  h_S1024x128 : 0 < S1024x128.numel
  bitsLt_bf16_f32 : FTy.bits .bf16 < FTy.bits .f32
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  shapeCasts_S1024x256_S1x1024x256 : S1024x256.ShapeCasts S1x1024x256
  packedbf16_S1x1024x256_S1x1024x256_0_0_0 : (Rect.unit (s := S1x1024x256) ![0, 0, 0] S1x1024x256.size inb_S1x1024x256_S1x1024x256_0_0_0).PackedRows (EltTy.packing .bf16)
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  shapeCasts_S1024x128_S1x1024x128 : S1024x128.ShapeCasts S1x1024x128
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  reduces_S512x2048_S512 : S512x2048.Reduces [1] S512
  shapeCasts_S512_S512x1 : S512.ShapeCasts S512x1
  broadcasts_S512x1_S512x2048 : S512x1.Broadcasts S512x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  shapeCasts_S512x128_S1x512x128 : S512x128.ShapeCasts S1x512x128
  dot_S1024x1024_S1024x256_S1024x256_1_0_0_1_n_n_wf : DotDims.WF S1024x1024 S1024x256 S1024x256 [1] [0] [0] [1] [] []
  dot_S1024x1024_S1024x128_S1024x128_1_0_0_1_n_n_wf : DotDims.WF S1024x1024 S1024x128 S1024x128 [1] [0] [0] [1] [] []
  dot_S512x256_S2048x256_S512x2048_1_1_0_0_n_n_wf : DotDims.WF S512x256 S2048x256 S512x2048 [1] [1] [0] [0] [] []
  dot_S512x2048_S2048x128_S512x128_1_0_0_1_n_n_wf : DotDims.WF S512x2048 S2048x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S8x2048x1024.size a
  hwx0_0 : ∀ i : grid0.Coords, EltTy.bits .f32 = 32 ∨ (Rect.block (s := S8x2048x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S8x2048x1024.size a
  hwx0_1 : ∀ i : grid0.Coords, EltTy.bits .f32 = 32 ∨ (Rect.block (s := S8x2048x1024) S1x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S8x2048x1024.size a
  hwx0_2 : ∀ i : grid0.Coords, EltTy.bits .f32 = 32 ∨ (Rect.block (s := S8x2048x1024) S1x1024x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S1024x256.size a
  hwx0_3 : ∀ i : grid0.Coords, EltTy.bits .f32 = 32 ∨ (Rect.block (s := S1024x256) S1024x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S1024x256.size a
  hwx0_4 : ∀ i : grid0.Coords, EltTy.bits .f32 = 32 ∨ (Rect.block (s := S1024x256) S1024x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x128.size a ≤ S1024x128.size a
  hwx0_5 : ∀ i : grid0.Coords, EltTy.bits .f32 = 32 ∨ (Rect.block (s := S1024x128) S1024x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024x256.size a ≤ S8x2048x256.size a
  hwx0_6 : ∀ i : grid0.Coords, EltTy.bits .bf16 = 32 ∨ (Rect.block (s := S8x2048x256) S1x1024x256.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1024x256.size a ≤ S8x2048x256.size a
  hwx0_7 : ∀ i : grid0.Coords, EltTy.bits .bf16 = 32 ∨ (Rect.block (s := S8x2048x256) S1x1024x256.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1024x128.size a ≤ S8x2048x128.size a
  hwx0_8 : ∀ i : grid0.Coords, EltTy.bits .f32 = 32 ∨ (Rect.block (s := S8x2048x128) S1x1024x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x256.size a ≤ S8x2048x256.size a
  hwx1_0 : ∀ i : grid1.Coords, EltTy.bits .bf16 = 32 ∨ (Rect.block (s := S8x2048x256) S1x512x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x256.size a ≤ S8x2048x256.size a
  hwx1_1 : ∀ i : grid1.Coords, EltTy.bits .bf16 = 32 ∨ (Rect.block (s := S8x2048x256) S1x2048x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x128.size a ≤ S8x2048x128.size a
  hwx1_2 : ∀ i : grid1.Coords, EltTy.bits .f32 = 32 ∨ (Rect.block (s := S8x2048x128) S1x2048x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x2048.size a ≤ S8x2048x2048.size a
  hwx1_3 : ∀ i : grid1.Coords, EltTy.bits .f32 = 32 ∨ (Rect.block (s := S8x2048x2048) S1x512x2048.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512x128.size a ≤ S8x2048x128.size a
  hwx1_4 : ∀ i : grid1.Coords, EltTy.bits .f32 = 32 ∨ (Rect.block (s := S8x2048x128) S1x512x128.size (cc1_transform_4 i) (hinb1_4 i)).WholeWords (EltTy.packing .f32)

variable [Facts₀]

def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S512x256_S2048x256_S512x2048_1_1_0_0_n_n : DotDims S512x256 S2048x256 S512x2048 where
  lhsContracting := [1]
  rhsContracting := [1]
  lhsNonContracting := [0]
  rhsNonContracting := [0]
  lhsBatch := []
  rhsBatch := []
  wf := dot_S512x256_S2048x256_S512x2048_1_1_0_0_n_n_wf
def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1024x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0_0) S1x1024x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_1) S1x1024x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_2) S1x1024x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v0_0) S1x512x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S1x2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_2) S1x2048x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1_0) S1x512x2048.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1_1) S1x512x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S8x2048x1024 : Shape := ⟨3, ![8, 2048, 1024]⟩
abbrev S1024x256 : Shape := ⟨2, ![1024, 256]⟩
abbrev S1024x128 : Shape := ⟨2, ![1024, 128]⟩
abbrev S8x2048x256 : Shape := ⟨3, ![8, 2048, 256]⟩
abbrev S_ : Shape := ⟨0, ![]⟩
abbrev S8x2048x2048 : Shape := ⟨3, ![8, 2048, 2048]⟩
abbrev S8x2048 : Shape := ⟨2, ![8, 2048]⟩
abbrev S8x2048x1 : Shape := ⟨3, ![8, 2048, 1]⟩
abbrev S8x2048x128 : Shape := ⟨3, ![8, 2048, 128]⟩

abbrev nBuf : Space → Nat
  | .hbm => 52
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x1024, .f32⟩
  | .hbm, ⟨3, _⟩ => ⟨S1024x256, .f32⟩
  | .hbm, ⟨4, _⟩ => ⟨S1024x256, .f32⟩
  | .hbm, ⟨5, _⟩ => ⟨S1024x128, .f32⟩
  | .hbm, ⟨6, _⟩ => ⟨S8x2048x256, .f32⟩
  | .hbm, ⟨7, _⟩ => ⟨S_, .f32⟩
  | .hbm, ⟨8, _⟩ => ⟨S8x2048x256, .f32⟩
  | .hbm, ⟨9, _⟩ => ⟨S8x2048x256, .i1⟩
  | .hbm, ⟨10, _⟩ => ⟨S_, .f32⟩
  | .hbm, ⟨11, _⟩ => ⟨S_, .f32⟩
  | .hbm, ⟨12, _⟩ => ⟨S8x2048x256, .f32⟩
  | .hbm, ⟨13, _⟩ => ⟨S8x2048x256, .f32⟩
  | .hbm, ⟨14, _⟩ => ⟨S8x2048x256, .f32⟩
  | .hbm, ⟨15, _⟩ => ⟨S8x2048x256, .f32⟩
  | .hbm, ⟨16, _⟩ => ⟨S_, .f32⟩
  | .hbm, ⟨17, _⟩ => ⟨S8x2048x256, .f32⟩
  | .hbm, ⟨18, _⟩ => ⟨S8x2048x256, .i1⟩
  | .hbm, ⟨19, _⟩ => ⟨S_, .f32⟩
  | .hbm, ⟨20, _⟩ => ⟨S_, .f32⟩
  | .hbm, ⟨21, _⟩ => ⟨S8x2048x256, .f32⟩
  | .hbm, ⟨22, _⟩ => ⟨S8x2048x256, .f32⟩
  | .hbm, ⟨23, _⟩ => ⟨S8x2048x256, .f32⟩
  | .hbm, ⟨24, _⟩ => ⟨S8x2048x2048, .f32⟩
  | .hbm, ⟨25, _⟩ => ⟨S_, .f32⟩
  | .hbm, ⟨26, _⟩ => ⟨S8x2048x2048, .f32⟩
  | .hbm, ⟨27, _⟩ => ⟨S8x2048x2048, .f32⟩
  | .hbm, ⟨28, _⟩ => ⟨S_, .f32⟩
  | .hbm, ⟨29, _⟩ => ⟨S8x2048x2048, .f32⟩
  | .hbm, ⟨30, _⟩ => ⟨S8x2048x2048, .f32⟩
  | .hbm, ⟨31, _⟩ => ⟨S_, .f32⟩
  | .hbm, ⟨32, _⟩ => ⟨S8x2048x2048, .f32⟩
  | .hbm, ⟨33, _⟩ => ⟨S8x2048x2048, .f32⟩
  | .hbm, ⟨34, _⟩ => ⟨S8x2048x2048, .f32⟩
  | .hbm, ⟨35, _⟩ => ⟨S_, .f32⟩
  | .hbm, ⟨36, _⟩ => ⟨S8x2048, .f32⟩
  | .hbm, ⟨37, _⟩ => ⟨S_, .f32⟩
  | .hbm, ⟨38, _⟩ => ⟨S8x2048, .f32⟩
  | .hbm, ⟨39, _⟩ => ⟨S8x2048, .f32⟩
  | .hbm, ⟨40, _⟩ => ⟨S8x2048x1, .f32⟩
  | .hbm, ⟨41, _⟩ => ⟨S8x2048x2048, .f32⟩
  | .hbm, ⟨42, _⟩ => ⟨S8x2048x2048, .f32⟩
  | .hbm, ⟨43, _⟩ => ⟨S8x2048x2048, .f32⟩
  | .hbm, ⟨44, _⟩ => ⟨S8x2048x2048, .f32⟩
  | .hbm, ⟨45, _⟩ => ⟨S_, .f32⟩
  | .hbm, ⟨46, _⟩ => ⟨S8x2048, .f32⟩
  | .hbm, ⟨47, _⟩ => ⟨S8x2048x1, .f32⟩
  | .hbm, ⟨48, _⟩ => ⟨S8x2048x2048, .f32⟩
  | .hbm, ⟨49, _⟩ => ⟨S8x2048x2048, .f32⟩
  | .hbm, ⟨50, _⟩ => ⟨S8x2048x128, .f32⟩
  | .hbm, ⟨51, _⟩ => ⟨S8x2048x128, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_v3 : Ref sig .tc := ⟨.hbm, 14, rfl⟩
abbrev main_v4 : Ref sig .tc := ⟨.hbm, 15, rfl⟩
abbrev main_cst_2 : Ref sig .tc := ⟨.hbm, 16, rfl⟩
abbrev main_v5 : Ref sig .tc := ⟨.hbm, 17, rfl⟩
abbrev main_v6 : Ref sig .tc := ⟨.hbm, 18, rfl⟩
abbrev main_cst_3 : Ref sig .tc := ⟨.hbm, 19, rfl⟩
abbrev main_cst_4 : Ref sig .tc := ⟨.hbm, 20, rfl⟩
abbrev main_call1_v0 : Ref sig .tc := ⟨.hbm, 21, rfl⟩
abbrev main_call1_v1 : Ref sig .tc := ⟨.hbm, 22, rfl⟩
abbrev main_v7 : Ref sig .tc := ⟨.hbm, 23, rfl⟩
abbrev main_v8 : Ref sig .tc := ⟨.hbm, 24, rfl⟩
abbrev main_cst_5 : Ref sig .tc := ⟨.hbm, 25, rfl⟩
abbrev main_v9 : Ref sig .tc := ⟨.hbm, 26, rfl⟩
abbrev main_v10 : Ref sig .tc := ⟨.hbm, 27, rfl⟩
abbrev main_cst_6 : Ref sig .tc := ⟨.hbm, 28, rfl⟩
abbrev main_v11 : Ref sig .tc := ⟨.hbm, 29, rfl⟩
abbrev main_v12 : Ref sig .tc := ⟨.hbm, 30, rfl⟩
abbrev main_cst_7 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_8 : Ref sig .tc := ⟨.hbm, 35, rfl⟩
abbrev main_v16 : Ref sig .tc := ⟨.hbm, 36, rfl⟩
abbrev main_cst_9 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_10 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩

abbrev nD : Nat := 1
abbrev τ : Topo := Topo.v7x

variable {F : FTy → Type} [FloatOps F]

class Facts₀ : Prop where
  bcast_S_S8x2048x256 : S_.BroadcastsInDim S8x2048x256 (![] : Fin 0 → Fin S8x2048x256.rank)
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x1024_S1024x256_S8x2048x256_2_0_01_1_n_n_wf : DotDims.WF S8x2048x1024 S1024x256 S8x2048x256 [2] [0] [0, 1] [1] [] []
  dot_S8x2048x256_S8x2048x256_S8x2048x2048_2_2_1_1_0_0_wf : DotDims.WF S8x2048x256 S8x2048x256 S8x2048x2048 [2] [2] [1] [1] [0] [0]
  dot_S8x2048x1024_S1024x128_S8x2048x128_2_0_01_1_n_n_wf : DotDims.WF S8x2048x1024 S1024x128 S8x2048x128 [2] [0] [0, 1] [1] [] []
  dot_S8x2048x2048_S8x2048x128_S8x2048x128_2_1_1_2_0_0_wf : DotDims.WF S8x2048x2048 S8x2048x128 S8x2048x128 [2] [1] [1] [2] [0] [0]

variable [Facts₀]

def dot_S8x2048x1024_S1024x256_S8x2048x256_2_0_01_1_n_n : DotDims S8x2048x1024 S1024x256 S8x2048x256 where
  lhsContracting := [2]
  rhsContracting := [0]
  lhsNonContracting := [0, 1]
  rhsNonContracting := [1]
  lhsBatch := []
  rhsBatch := []
  wf := dot_S8x2048x1024_S1024x256_S8x2048x256_2_0_01_1_n_n_wf
def dot_S8x2048x256_S8x2048x256_S8x2048x2048_2_2_1_1_0_0 : DotDims S8x2048x256 S8x2048x256 S8x2048x2048 where
  lhsContracting := [2]
  rhsContracting := [2]
  lhsNonContracting := [1]
  rhsNonContracting := [1]
  lhsBatch := [0]
  rhsBatch := [0]
  wf := dot_S8x2048x256_S8x2048x256_S8x2048x2048_2_2_1_1_0_0_wf
def dot_S8x2048x1024_S1024x128_S8x2048x128_2_0_01_1_n_n : DotDims S8x2048x1024 S1024x128 S8x2048x128 where
  lhsContracting := [2]
  rhsContracting := [0]
  lhsNonContracting := [0, 1]
  rhsNonContracting := [1]
  lhsBatch := []
  rhsBatch := []
  wf := dot_S8x2048x1024_S1024x128_S8x2048x128_2_0_01_1_n_n_wf
def dot_S8x2048x2048_S8x2048x128_S8x2048x128_2_1_1_2_0_0 : DotDims S8x2048x2048 S8x2048x128 S8x2048x128 where
  lhsContracting := [2]
  rhsContracting := [1]
  lhsNonContracting := [1]
  rhsNonContracting := [2]
  lhsBatch := [0]
  rhsBatch := [0]
  wf := dot_S8x2048x2048_S8x2048x128_S8x2048x128_2_1_1_2_0_0_wf

class Facts : Prop extends Facts₀ where

variable [Facts]
-- ==== Proof.Spec.lean ====
/-
  The mathematics both programs compute, stated once over literal shapes and with every float literal kept as its
  word. Inputs Q, K, V : [8, 2048, 1024], Wq, Wk : [1024, 256], Wv : [1024, 128]; everything is an extended real.

  * `proj256 X W` / `proj128 X W`: the projection (X · W)[b, n, c] = ∑ k, X[b, n, k] · W[k, c].
  * `bitOf p`: the hard sign bit of a projection entry, `1` where `p > 0` and `-1` elsewhere; `signs X W` the
    encoded array `bitOf ∘ proj256 X W`.
  * `hdot sq sk`: the Hamming dot product (sq · skᵀ)[b, n, j] = ∑ k, sq[b, n, k] · sk[b, j, k].
  * `scoreK d = d · 2⁻⁵` and `scoreR d = (2⁻¹ · (d + 256)) · 2⁻⁴`: the two spellings of the attention score; they
    differ by the constant 8 along every row, which a softmax does not see (Proof/Shift.lean).
  * `softmax s`: along the last axis, `exp (s − max s) / ∑ exp (s − max s)`, the maximum a fold of `max` from `-∞`.
  * `mix a vp`: the weighted sum (a · vp)[b, n, h] = ∑ j, a[b, n, j] · vp[b, j, h].

  The attention weights are `softmax (score (hdot (signs Q Wq) (signs K Wk)))` and the output is their `mix` with
  `proj128 V Wv`.
-/
import Idealize.ShloMosaic.PureOps.Ideal
import Idealize.ShloMosaic.Lib.ValueIdx

noncomputable section

open scoped BigOperators

namespace Cert.Rewa

open Idealize.ShloMosaic Idealize.ShloMosaic.ValueIdx

abbrev SIn : Shape := ⟨3, ![8, 2048, 1024]⟩
abbrev SW256 : Shape := ⟨2, ![1024, 256]⟩
abbrev SW128 : Shape := ⟨2, ![1024, 128]⟩
abbrev SBits : Shape := ⟨3, ![8, 2048, 256]⟩
abbrev SHead : Shape := ⟨3, ![8, 2048, 128]⟩
abbrev SAttn : Shape := ⟨3, ![8, 2048, 2048]⟩

/-- (X · W)[b, n, c] with 256 columns. -/
def proj256 (X : SIn.Idx → EReal) (W : SW256.Idx → EReal) : SBits.Idx → EReal :=
  fun i => ∑ k : Fin 1024, X (ix3 (i 0) (i 1) k) * W (ix2 k (i 2))

/-- (X · W)[b, n, c] with 128 columns. -/
def proj128 (X : SIn.Idx → EReal) (W : SW128.Idx → EReal) : SHead.Idx → EReal :=
  fun i => ∑ k : Fin 1024, X (ix3 (i 0) (i 1) k) * W (ix2 k (i 2))

/-- The sign bit of one projection entry: the word of `1.0` where `p > 0`, the word of `-1.0` elsewhere. -/
def bitOf (p : EReal) : EReal :=
  Scalar.select (Ideal.cmp .ogt p (Ideal.ofBits .f32 0x00000000#32))
    (Ideal.ofBits .f32 0x3F800000#32) (Ideal.ofBits .f32 0xBF800000#32)

/-- The encoded array: the sign bit of every projection entry. -/
def signs (X : SIn.Idx → EReal) (W : SW256.Idx → EReal) : SBits.Idx → EReal :=
  fun i => bitOf (proj256 X W i)

/-- The Hamming dot product of a query row and a key row of one batch element. -/
def hdot (sq sk : SBits.Idx → EReal) : SAttn.Idx → EReal :=
  fun i => ∑ k : Fin 256, sq (ix3 (i 0) (i 1) k) * sk (ix3 (i 0) (i 2) k)

/-- The score with the additive constant dropped: `d · 2⁻⁵`. -/
def scoreK (d : SAttn.Idx → EReal) : SAttn.Idx → EReal :=
  fun i => d i * Ideal.ofBits .f32 0x3D000000#32

/-- The score as the definition spells it: `(2⁻¹ · (d + 256)) · 2⁻⁴`. -/
def scoreR (d : SAttn.Idx → EReal) : SAttn.Idx → EReal :=
  fun i => Ideal.ofBits .f32 0x3F000000#32 * (d i + Ideal.ofBits .f32 0x43800000#32) * Ideal.ofBits .f32 0x3D800000#32

/-- The maximum of row (b, n): the fold of `max` from `-∞` over the row's 2048 entries. -/
def rowMax (s : SAttn.Idx → EReal) (b : Fin 8) (n : Fin 2048) : EReal :=
  (Finset.univ : Finset (Fin 2048)).fold max (Ideal.ofBits .f32 0xFF800000#32) (fun j => s (ix3 b n j))

/-- `exp (s − max of the row)`. -/
def expo (s : SAttn.Idx → EReal) : SAttn.Idx → EReal :=
  fun i => Ideal.exp (s i - rowMax s (i 0) (i 1))

/-- The softmax along the last axis. -/
def softmax (s : SAttn.Idx → EReal) : SAttn.Idx → EReal :=
  fun i => Ideal.div (expo s i) (∑ j : Fin 2048, expo s (ix3 (i 0) (i 1) j))

/-- The weighted sum of the value rows of one batch element. -/
def mix (a : SAttn.Idx → EReal) (vp : SHead.Idx → EReal) : SHead.Idx → EReal :=
  fun i => ∑ j : Fin 2048, a (ix3 (i 0) (i 1) j) * vp (ix3 (i 0) j (i 2))

end Cert.Rewa

end
-- ==== Proof.Shift.lean ====
/-
  The one law that joins the two programs: a softmax along a row does not see a constant added to the whole row.

  The two spellings of the score differ by exactly such a constant. For a REAL Hamming dot product d,
  `(2⁻¹ · (d + 256)) · 2⁻⁴ = d · 2⁻⁵ + 8`. The row maximum of `s + 8` is the row maximum of `s` plus 8 (adding 8 is
  monotone on the extended reals, and `-∞ + 8 = -∞` for the fold's start), and for a real entry `a` and any extended
  real `M`, `(a + 8) − (M + 8) = a − M`. So the exponentials `exp (s − max s)` agree entry by entry, and the softmax is
  a function of those exponentials alone.

  The dot product is real because every encoded entry is the word of `1.0` or of `-1.0`: a finite sum of products of
  reals.
-/
import proofs.«414972_j84293028151338_3_alg».proof.Proof.Spec
import Mathlib.Data.EReal.Operations
import Mathlib.Algebra.BigOperators.Group.Finset.Basic
import Mathlib.Tactic.NormNum
import Mathlib.Tactic.Ring

noncomputable section

open scoped BigOperators

namespace Cert.Rewa

open Idealize.ShloMosaic Idealize.ShloMosaic.ValueIdx

/-! ## The literals' values -/

theorem word_one : Ideal.ofBits .f32 0x3F800000#32 = ((1 : ℝ) : EReal) := by
  simp [Ideal.ofBits, Ideal.ieee, -EReal.coe_mul]; norm_num
theorem word_neg_one : Ideal.ofBits .f32 0xBF800000#32 = ((-1 : ℝ) : EReal) := by
  simp [Ideal.ofBits, Ideal.ieee, -EReal.coe_mul]; norm_num
theorem word_half : Ideal.ofBits .f32 0x3F000000#32 = ((1 / 2 : ℝ) : EReal) := by
  simp [Ideal.ofBits, Ideal.ieee, -EReal.coe_mul]; norm_num
theorem word_256 : Ideal.ofBits .f32 0x43800000#32 = ((256 : ℝ) : EReal) := by
  simp [Ideal.ofBits, Ideal.ieee, -EReal.coe_mul]; norm_num
theorem word_sixteenth : Ideal.ofBits .f32 0x3D800000#32 = ((1 / 16 : ℝ) : EReal) := by
  simp [Ideal.ofBits, Ideal.ieee, -EReal.coe_mul]; norm_num
theorem word_thirtysecond : Ideal.ofBits .f32 0x3D000000#32 = ((1 / 32 : ℝ) : EReal) := by
  simp [Ideal.ofBits, Ideal.ieee, -EReal.coe_mul]; norm_num
theorem word_neg_inf : Ideal.ofBits .f32 0xFF800000#32 = (⊥ : EReal) := by
  simp [Ideal.ofBits, Ideal.ieee]

/-! ## The Hamming dot product of sign bits is real -/

/-- A sign bit is `1` or `-1`: a real. -/
theorem bitOf_real (p : EReal) : ∃ r : ℝ, bitOf p = (r : EReal) := by
  unfold bitOf Scalar.select
  split
  · exact ⟨1, word_one⟩
  · exact ⟨-1, word_neg_one⟩

/-- The coercion of a finite real sum is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of products of reals is real. -/
theorem sum_mul_real {n : Nat} (a b : Fin n → EReal) (ha : ∀ k, ∃ r : ℝ, a k = (r : EReal))
    (hb : ∀ k, ∃ r : ℝ, b k = (r : EReal)) : ∃ r : ℝ, ∑ k : Fin n, a k * b k = (r : EReal) := by
  choose ra hra using ha
  choose rb hrb using hb
  refine ⟨∑ k : Fin n, ra k * rb k, ?_⟩
  rw [coe_sum]
  exact Finset.sum_congr rfl fun k _ => by rw [hra k, hrb k, EReal.coe_mul]

/-- Every Hamming dot product of two encoded arrays is real. -/
theorem hdot_signs_real (X X' : SIn.Idx → EReal) (W W' : SW256.Idx → EReal) (i : SAttn.Idx) :
    ∃ r : ℝ, hdot (signs X W) (signs X' W') i = (r : EReal) :=
  sum_mul_real _ _ (fun _ => bitOf_real _) (fun _ => bitOf_real _)

/-! ## The shift -/

/-- On a real dot product the two scores differ by 8. -/
theorem scoreR_eq (d : SAttn.Idx → EReal) (hd : ∀ i, ∃ r : ℝ, d i = (r : EReal)) (i : SAttn.Idx) :
    scoreR d i = scoreK d i + ((8 : ℝ) : EReal) := by
  obtain ⟨r, hr⟩ := hd i
  unfold scoreR scoreK
  rw [hr, word_half, word_256, word_sixteenth, word_thirtysecond]
  rw [← EReal.coe_add, ← EReal.coe_mul, ← EReal.coe_mul, ← EReal.coe_mul, ← EReal.coe_add]
  congr 1
  ring

/-- The score with the constant dropped is real on a real dot product. -/
theorem scoreK_real (d : SAttn.Idx → EReal) (hd : ∀ i, ∃ r : ℝ, d i = (r : EReal)) (i : SAttn.Idx) :
    ∃ r : ℝ, scoreK d i = (r : EReal) := by
  obtain ⟨r, hr⟩ := hd i
  exact ⟨r * (1 / 32), by unfold scoreK; rw [hr, word_thirtysecond, EReal.coe_mul]⟩

/-- The row maximum moves with the constant. -/
theorem rowMax_add (s : SAttn.Idx → EReal) (b : Fin 8) (n : Fin 2048) :
    rowMax (fun i => s i + ((8 : ℝ) : EReal)) b n = rowMax s b n + ((8 : ℝ) : EReal) := by
  unfold rowMax
  have hm : Monotone fun x : EReal => x + ((8 : ℝ) : EReal) := fun x y h => add_le_add h le_rfl
  have := Finset.fold_hom (op := max) (op' := max) (m := fun x : EReal => x + ((8 : ℝ) : EReal))
    (s := (Finset.univ : Finset (Fin 2048))) (b := Ideal.ofBits .f32 0xFF800000#32) (f := fun j => s (ix3 b n j))
    (fun x y => hm.map_max)
  rw [← this, word_neg_inf, EReal.bot_add]

/-- A real entry minus the row maximum does not see the constant. -/
theorem sub_shift (a : ℝ) (M : EReal) :
    ((a : EReal) + ((8 : ℝ) : EReal)) - (M + ((8 : ℝ) : EReal)) = (a : EReal) - M := by
  induction M using EReal.rec with
  | bot => rw [EReal.bot_add, ← EReal.coe_add, EReal.coe_sub_bot, EReal.coe_sub_bot]
  | coe x => rw [← EReal.coe_add, ← EReal.coe_add, ← EReal.coe_sub, ← EReal.coe_sub]; congr 1; ring
  | top => rw [EReal.top_add_coe, EReal.sub_top, EReal.sub_top]

/-- The exponentials of the two scores agree. -/
theorem expo_shift (d : SAttn.Idx → EReal) (hd : ∀ i, ∃ r : ℝ, d i = (r : EReal)) :
    expo (scoreR d) = expo (scoreK d) := by
  have hR : scoreR d = fun i => scoreK d i + ((8 : ℝ) : EReal) := funext (scoreR_eq d hd)
  funext i
  obtain ⟨b, n, j, rfl⟩ : ∃ (b : Fin 8) (n : Fin 2048) (j : Fin 2048), i = ix3 b n j := ⟨i 0, i 1, i 2, eq_ix3 i⟩
  obtain ⟨a, ha⟩ := scoreK_real d hd (ix3 b n j)
  have hM : rowMax (scoreR d) b n = rowMax (scoreK d) b n + ((8 : ℝ) : EReal) := by
    rw [hR]; exact rowMax_add _ b n
  show Ideal.exp (scoreR d (ix3 b n j) - rowMax (scoreR d) b n)
    = Ideal.exp (scoreK d (ix3 b n j) - rowMax (scoreK d) b n)
  rw [scoreR_eq d hd (ix3 b n j), hM, ha, sub_shift]

/-- THE LAW: on real dot products the softmax of either score is the same array. -/
theorem softmax_shift (d : SAttn.Idx → EReal) (hd : ∀ i, ∃ r : ℝ, d i = (r : EReal)) :
    softmax (scoreR d) = softmax (scoreK d) := by
  unfold softmax
  rw [expo_shift d hd]

end Cert.Rewa

end
-- ==== Proof.Region0.lean ====
/-
  The first region's three output arrays, as whole-array functions of the six arrays the region finds.

  The region runs over an 8 × 2 grid: point t handles batch element t / 2 and the 1024 rows (t % 2) · 1024 … of it.
  At a point the body loads a [1024, 1024] block of each of Q, K, V and the three whole weight arrays, and stores, each
  as one whole block, the sign bits of Q-block · Wq, the sign bits of K-block · Wk and V-block · Wv. Row r of a block is
  row (t % 2) · 1024 + r of its batch element, so what point t writes back is block t of the whole-array function
  (the sign bits of Q · Wq, and so on); the 16 blocks tile each output array, hence the array ends holding that function.
-/
import proofs.«414972_j84293028151338_3_alg».proof.Proof.Gen.KernelIdeal.Frame
import proofs.«414972_j84293028151338_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region0

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

/-- The six arrays the region finds, each at its literal type. -/
abbrev arr0 (c : Dev nD) : S8x2048x1024.Idx → EReal := V c main_arg0
abbrev arr1 (c : Dev nD) : S8x2048x1024.Idx → EReal := V c main_arg1
abbrev arr2 (c : Dev nD) : S8x2048x1024.Idx → EReal := V c main_arg2
abbrev arr3 (c : Dev nD) : S1024x256.Idx → EReal := V c main_arg3
abbrev arr4 (c : Dev nD) : S1024x256.Idx → EReal := V c main_arg4
abbrev arr5 (c : Dev nD) : S1024x128.Idx → EReal := V c main_arg5

/-! ## The matrix products of the body, at an output entry

The contraction of `[1024, 1024] · [1024, c]` over the left operand's axis 1 and the right operand's axis 0:
the four axis facts of each dimension record, then the product read at `(r, q)` as a sum over `Fin 1024`. -/

theorem lhs256_0 (i : S1024x256.Idx) (q : dot_S1024x1024_S1024x256_S1024x256_1_0_0_1_n_n.contr.Idx) :
    (dot_S1024x1024_S1024x256_S1024x256_1_0_0_1_n_n.lhsIdx i q 0).val = (i 0).val := by
  unfold DotDims.lhsIdx
  rw [dif_neg (show ¬(0 : Fin S1024x1024.rank) ∈ dot_S1024x1024_S1024x256_S1024x256_1_0_0_1_n_n.lhsBatch by decide), dif_pos (show (0 : Fin S1024x1024.rank) ∈ dot_S1024x1024_S1024x256_S1024x256_1_0_0_1_n_n.lhsNonContracting by decide)]
  rfl
theorem lhs256_1 (i : S1024x256.Idx) (q : dot_S1024x1024_S1024x256_S1024x256_1_0_0_1_n_n.contr.Idx) :
    (dot_S1024x1024_S1024x256_S1024x256_1_0_0_1_n_n.lhsIdx i q 1).val = (q ⟨0, by decide⟩).val :=
  dot_S1024x1024_S1024x256_S1024x256_1_0_0_1_n_n.lhsIdx_val_of_single rfl i q
theorem rhs256_0 (i : S1024x256.Idx) (q : dot_S1024x1024_S1024x256_S1024x256_1_0_0_1_n_n.contr.Idx) :
    (dot_S1024x1024_S1024x256_S1024x256_1_0_0_1_n_n.rhsIdx i q 0).val = (q ⟨0, by decide⟩).val :=
  dot_S1024x1024_S1024x256_S1024x256_1_0_0_1_n_n.rhsIdx_val_of_single rfl i q
theorem rhs256_1 (i : S1024x256.Idx) (q : dot_S1024x1024_S1024x256_S1024x256_1_0_0_1_n_n.contr.Idx) :
    (dot_S1024x1024_S1024x256_S1024x256_1_0_0_1_n_n.rhsIdx i q 1).val = (i 1).val := by
  unfold DotDims.rhsIdx
  rw [dif_neg (show ¬(1 : Fin S1024x256.rank) ∈ dot_S1024x1024_S1024x256_S1024x256_1_0_0_1_n_n.rhsBatch by decide), dif_pos (show (1 : Fin S1024x256.rank) ∈ dot_S1024x1024_S1024x256_S1024x256_1_0_0_1_n_n.rhsNonContracting by decide)]
  rfl

/-- The 256-column product into a zero accumulator, at `(r, q)`: the sum over the contracted axis. -/
theorem matmul256_apply {φ₁ φ₂ : FTy} (prec : Option ContractPrecision) (a : FVec Ideal S1024x1024 φ₁) (b : FVec Ideal S1024x256 φ₂)
    (r : Fin 1024) (q : Fin 256) :
    matmul dot_S1024x1024_S1024x256_S1024x256_1_0_0_1_n_n prec a b (constant S1024x256 .f32 0x00000000#32) (ix2 r q)
      = ∑ k : Fin 1024, a (ix2 r k) * b (ix2 k q) := by
  simp only [matmul]
  rw [Ideal.matmul_constant_zero_apply, ← Equiv.sum_comp (ValueIdx.contrEquiv1 dot_S1024x1024_S1024x256_S1024x256_1_0_0_1_n_n 1024 rfl rfl).symm]
  refine Finset.sum_congr rfl fun k _ => ?_
  have hk := ValueIdx.contrEquiv1_symm_val dot_S1024x1024_S1024x256_S1024x256_1_0_0_1_n_n 1024 rfl rfl k
  have el : dot_S1024x1024_S1024x256_S1024x256_1_0_0_1_n_n.lhsIdx (ix2 r q) ((ValueIdx.contrEquiv1 dot_S1024x1024_S1024x256_S1024x256_1_0_0_1_n_n 1024 rfl rfl).symm k) = ix2 r k := funext fun a => Fin.ext (by
    match a with
    | ⟨0, _⟩ => exact lhs256_0 _ _
    | ⟨1, _⟩ => exact (lhs256_1 _ _).trans hk)
  have er : dot_S1024x1024_S1024x256_S1024x256_1_0_0_1_n_n.rhsIdx (ix2 r q) ((ValueIdx.contrEquiv1 dot_S1024x1024_S1024x256_S1024x256_1_0_0_1_n_n 1024 rfl rfl).symm k) = ix2 k q := funext fun a => Fin.ext (by
    match a with
    | ⟨0, _⟩ => exact (rhs256_0 _ _).trans hk
    | ⟨1, _⟩ => exact rhs256_1 _ _)
  rw [el, er]

theorem lhs128_0 (i : S1024x128.Idx) (q : dot_S1024x1024_S1024x128_S1024x128_1_0_0_1_n_n.contr.Idx) :
    (dot_S1024x1024_S1024x128_S1024x128_1_0_0_1_n_n.lhsIdx i q 0).val = (i 0).val := by
  unfold DotDims.lhsIdx
  rw [dif_neg (show ¬(0 : Fin S1024x1024.rank) ∈ dot_S1024x1024_S1024x128_S1024x128_1_0_0_1_n_n.lhsBatch by decide), dif_pos (show (0 : Fin S1024x1024.rank) ∈ dot_S1024x1024_S1024x128_S1024x128_1_0_0_1_n_n.lhsNonContracting by decide)]
  rfl
theorem lhs128_1 (i : S1024x128.Idx) (q : dot_S1024x1024_S1024x128_S1024x128_1_0_0_1_n_n.contr.Idx) :
    (dot_S1024x1024_S1024x128_S1024x128_1_0_0_1_n_n.lhsIdx i q 1).val = (q ⟨0, by decide⟩).val :=
  dot_S1024x1024_S1024x128_S1024x128_1_0_0_1_n_n.lhsIdx_val_of_single rfl i q
theorem rhs128_0 (i : S1024x128.Idx) (q : dot_S1024x1024_S1024x128_S1024x128_1_0_0_1_n_n.contr.Idx) :
    (dot_S1024x1024_S1024x128_S1024x128_1_0_0_1_n_n.rhsIdx i q 0).val = (q ⟨0, by decide⟩).val :=
  dot_S1024x1024_S1024x128_S1024x128_1_0_0_1_n_n.rhsIdx_val_of_single rfl i q
theorem rhs128_1 (i : S1024x128.Idx) (q : dot_S1024x1024_S1024x128_S1024x128_1_0_0_1_n_n.contr.Idx) :
    (dot_S1024x1024_S1024x128_S1024x128_1_0_0_1_n_n.rhsIdx i q 1).val = (i 1).val := by
  unfold DotDims.rhsIdx
  rw [dif_neg (show ¬(1 : Fin S1024x128.rank) ∈ dot_S1024x1024_S1024x128_S1024x128_1_0_0_1_n_n.rhsBatch by decide), dif_pos (show (1 : Fin S1024x128.rank) ∈ dot_S1024x1024_S1024x128_S1024x128_1_0_0_1_n_n.rhsNonContracting by decide)]
  rfl

/-- The 128-column product into a zero accumulator, at `(r, q)`: the sum over the contracted axis. -/
theorem matmul128_apply {φ₁ φ₂ : FTy} (prec : Option ContractPrecision) (a : FVec Ideal S1024x1024 φ₁) (b : FVec Ideal S1024x128 φ₂)
    (r : Fin 1024) (q : Fin 128) :
    matmul dot_S1024x1024_S1024x128_S1024x128_1_0_0_1_n_n prec a b (constant S1024x128 .f32 0x00000000#32) (ix2 r q)
      = ∑ k : Fin 1024, a (ix2 r k) * b (ix2 k q) := by
  simp only [matmul]
  rw [Ideal.matmul_constant_zero_apply, ← Equiv.sum_comp (ValueIdx.contrEquiv1 dot_S1024x1024_S1024x128_S1024x128_1_0_0_1_n_n 1024 rfl rfl).symm]
  refine Finset.sum_congr rfl fun k _ => ?_
  have hk := ValueIdx.contrEquiv1_symm_val dot_S1024x1024_S1024x128_S1024x128_1_0_0_1_n_n 1024 rfl rfl k
  have el : dot_S1024x1024_S1024x128_S1024x128_1_0_0_1_n_n.lhsIdx (ix2 r q) ((ValueIdx.contrEquiv1 dot_S1024x1024_S1024x128_S1024x128_1_0_0_1_n_n 1024 rfl rfl).symm k) = ix2 r k := funext fun a => Fin.ext (by
    match a with
    | ⟨0, _⟩ => exact lhs128_0 _ _
    | ⟨1, _⟩ => exact (lhs128_1 _ _).trans hk)
  have er : dot_S1024x1024_S1024x128_S1024x128_1_0_0_1_n_n.rhsIdx (ix2 r q) ((ValueIdx.contrEquiv1 dot_S1024x1024_S1024x128_S1024x128_1_0_0_1_n_n 1024 rfl rfl).symm k) = ix2 k q := funext fun a => Fin.ext (by
    match a with
    | ⟨0, _⟩ => exact (rhs128_0 _ _).trans hk
    | ⟨1, _⟩ => exact rhs128_1 _ _)
  rw [el, er]

/-! ## The body's payloads at an entry -/

/-- The sign payload of the query window at `(u, r, q)`: the unit axis dropped and added by the two shape casts,
the product by `matmul256_apply`, the compare against the zero word and the select of the words of `1.0` and `-1.0`
read pointwise, the change of float format the identity. -/
theorem pay_sq_apply (x0 : Vec Ideal S1x1024x1024 .f32) (x3 : Vec Ideal S1024x256 .f32) (u : Fin 1) (r : Fin 1024) (q : Fin 256) :
    k0_pay4 (F := Ideal) x0 x3 (ix3 u r q) = Cert.Rewa.bitOf (∑ k : Fin 1024, x0 (ix3 (0 : Fin 1) r k) * x3 (ix2 k q)) := by
  unfold k0_pay4
  refine (shapeCast_ab_1ab_apply _ shapeCasts_S1024x256_S1x1024x256 u r q).trans ?_
  show Cert.Rewa.bitOf (matmul (F := Ideal) dot_S1024x1024_S1024x256_S1024x256_1_0_0_1_n_n (some .fp32)
    (shapeCast S1024x1024 x0 shapeCasts_S1x1024x1024_S1024x1024) x3 (constant (F := Ideal) S1024x256 .f32 0x00000000#32) (ix2 r q)) = _
  refine congrArg Cert.Rewa.bitOf ((matmul256_apply (some .fp32) _ x3 r q).trans ?_)
  exact Finset.sum_congr rfl fun k _ => congrArg (· * x3 (ix2 k q)) (shapeCast_1ab_ab_apply x0 shapeCasts_S1x1024x1024_S1024x1024 r k)

/-- The sign payload of the key window at `(u, r, q)`: the same entry, the unit axis added by a separate cast. -/
theorem pay_sk_apply (x1 : Vec Ideal S1x1024x1024 .f32) (x4 : Vec Ideal S1024x256 .f32) (u : Fin 1) (r : Fin 1024) (q : Fin 256) :
    k0_pay1 (F := Ideal) (k0_pay5 (F := Ideal) x1 x4) (ix3 u r q) = Cert.Rewa.bitOf (∑ k : Fin 1024, x1 (ix3 (0 : Fin 1) r k) * x4 (ix2 k q)) := by
  unfold k0_pay1
  refine (shapeCast_ab_1ab_apply _ shapeCasts_S1024x256_S1x1024x256 u r q).trans ?_
  unfold k0_pay5
  show Cert.Rewa.bitOf (matmul (F := Ideal) dot_S1024x1024_S1024x256_S1024x256_1_0_0_1_n_n (some .fp32)
    (shapeCast S1024x1024 x1 shapeCasts_S1x1024x1024_S1024x1024) x4 (constant (F := Ideal) S1024x256 .f32 0x00000000#32) (ix2 r q)) = _
  refine congrArg Cert.Rewa.bitOf ((matmul256_apply (some .fp32) _ x4 r q).trans ?_)
  exact Finset.sum_congr rfl fun k _ => congrArg (· * x4 (ix2 k q)) (shapeCast_1ab_ab_apply x1 shapeCasts_S1x1024x1024_S1024x1024 r k)

/-- The value payload at `(u, r, h)`: the product of the two operands, each through a change of float format that
is the identity on extended reals. -/
theorem pay_vp_apply (x2 : Vec Ideal S1x1024x1024 .f32) (x5 : Vec Ideal S1024x128 .f32) (u : Fin 1) (r : Fin 1024) (h : Fin 128) :
    k0_pay2 (F := Ideal) (k0_pay3 (F := Ideal) x2 x5) (ix3 u r h) = ∑ k : Fin 1024, x2 (ix3 (0 : Fin 1) r k) * x5 (ix2 k h) := by
  unfold k0_pay2
  refine (shapeCast_ab_1ab_apply _ shapeCasts_S1024x128_S1x1024x128 u r h).trans ?_
  unfold k0_pay3
  refine (matmul128_apply none _ _ r h).trans ?_
  exact Finset.sum_congr rfl fun k _ => congrArg (· * x5 (ix2 k h)) (shapeCast_1ab_ab_apply x2 shapeCasts_S1x1024x1024_S1024x1024 r k)

/-! ## The index maps over the grid -/

theorem hz2 : (![0, 0] : Fin 2 → Nat) = fun _ => 0 := funext fun a => by fin_cases a <;> rfl
theorem hz3 : (![0, 0, 0] : Fin 3 → Nat) = fun _ => 0 := funext fun a => by fin_cases a <;> rfl

/-- Point `t` of the 8 × 2 grid is batch element `t / 2` and row block `t % 2`: that is the block index of each
batched window (0, 1, 2 in; 6, 7, 8 out) there, on the third axis block zero; the weights' windows (3, 4, 5) stay at
block zero. Decided over the 16 points. -/
theorem idx_facts : ∀ t : Fin cfg0.N,
    (win0_0.index t (0 : Fin 3) = t.val / 2 ∧ win0_0.index t (1 : Fin 3) = t.val % 2 ∧ win0_0.index t (2 : Fin 3) = 0)
    ∧ (win0_1.index t (0 : Fin 3) = t.val / 2 ∧ win0_1.index t (1 : Fin 3) = t.val % 2 ∧ win0_1.index t (2 : Fin 3) = 0)
    ∧ (win0_2.index t (0 : Fin 3) = t.val / 2 ∧ win0_2.index t (1 : Fin 3) = t.val % 2 ∧ win0_2.index t (2 : Fin 3) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 3) = t.val / 2 ∧ win0_6.index t (1 : Fin 3) = t.val % 2 ∧ win0_6.index t (2 : Fin 3) = 0)
    ∧ (win0_7.index t (0 : Fin 3) = t.val / 2 ∧ win0_7.index t (1 : Fin 3) = t.val % 2 ∧ win0_7.index t (2 : Fin 3) = 0)
    ∧ (win0_8.index t (0 : Fin 3) = t.val / 2 ∧ win0_8.index t (1 : Fin 3) = t.val % 2 ∧ win0_8.index t (2 : Fin 3) = 0) :=
  (by decide +kernel : ∀ t : Fin grid0.N, _)

/-! ## The input blocks as entries of the arrays the region finds -/

/-- The query window's block at point `t`: batch element `t / 2`, rows `(t % 2) · 1024 …`, every column. -/
theorem qblk_apply (c : Dev nD) (t : Fin cfg0.N) (x : S1x1024x1024.Idx) (i : S8x2048x1024.Idx)
    (h0 : (i 0).val = t.val / 2 + (x 0).val) (h1 : (i 1).val = t.val % 2 * 1024 + (x 1).val) (h2 : (i 2).val = (x 2).val) :
    (iblk0 V c 0 t : Vec Ideal S1x1024x1024 .f32) x = arr0 V c i := by
  obtain ⟨⟨e0, e1, e2⟩, -, -, -, -, -, -, -, -⟩ := idx_facts t
  unfold iblk0
  rw [View.read_apply]
  show V c main_arg0 _ = V c main_arg0 _
  congr 1
  funext a
  apply Fin.ext
  match a with
  | ⟨0, _⟩ => show win0_0.index t (0 : Fin 3) * 1 + 1 * (x 0).val = (i 0).val; rw [e0, h0]; omega
  | ⟨1, _⟩ => show win0_0.index t (1 : Fin 3) * 1024 + 1 * (x 1).val = (i 1).val; rw [e1, h1]; omega
  | ⟨2, _⟩ => show win0_0.index t (2 : Fin 3) * 1024 + 1 * (x 2).val = (i 2).val; rw [e2, h2]; omega

/-- The key window's block at point `t`: batch element `t / 2`, rows `(t % 2) · 1024 …`, every column. -/
theorem kblk_apply (c : Dev nD) (t : Fin cfg0.N) (x : S1x1024x1024.Idx) (i : S8x2048x1024.Idx)
    (h0 : (i 0).val = t.val / 2 + (x 0).val) (h1 : (i 1).val = t.val % 2 * 1024 + (x 1).val) (h2 : (i 2).val = (x 2).val) :
    (iblk0 V c 1 t : Vec Ideal S1x1024x1024 .f32) x = arr1 V c i := by
  obtain ⟨-, ⟨e0, e1, e2⟩, -, -, -, -, -, -, -⟩ := idx_facts t
  unfold iblk0
  rw [View.read_apply]
  show V c main_arg1 _ = V c main_arg1 _
  congr 1
  funext a
  apply Fin.ext
  match a with
  | ⟨0, _⟩ => show win0_1.index t (0 : Fin 3) * 1 + 1 * (x 0).val = (i 0).val; rw [e0, h0]; omega
  | ⟨1, _⟩ => show win0_1.index t (1 : Fin 3) * 1024 + 1 * (x 1).val = (i 1).val; rw [e1, h1]; omega
  | ⟨2, _⟩ => show win0_1.index t (2 : Fin 3) * 1024 + 1 * (x 2).val = (i 2).val; rw [e2, h2]; omega

/-- The value window's block at point `t`: batch element `t / 2`, rows `(t % 2) · 1024 …`, every column. -/
theorem vblk_apply (c : Dev nD) (t : Fin cfg0.N) (x : S1x1024x1024.Idx) (i : S8x2048x1024.Idx)
    (h0 : (i 0).val = t.val / 2 + (x 0).val) (h1 : (i 1).val = t.val % 2 * 1024 + (x 1).val) (h2 : (i 2).val = (x 2).val) :
    (iblk0 V c 2 t : Vec Ideal S1x1024x1024 .f32) x = arr2 V c i := by
  obtain ⟨-, -, ⟨e0, e1, e2⟩, -, -, -, -, -, -⟩ := idx_facts t
  unfold iblk0
  rw [View.read_apply]
  show V c main_arg2 _ = V c main_arg2 _
  congr 1
  funext a
  apply Fin.ext
  match a with
  | ⟨0, _⟩ => show win0_2.index t (0 : Fin 3) * 1 + 1 * (x 0).val = (i 0).val; rw [e0, h0]; omega
  | ⟨1, _⟩ => show win0_2.index t (1 : Fin 3) * 1024 + 1 * (x 1).val = (i 1).val; rw [e1, h1]; omega
  | ⟨2, _⟩ => show win0_2.index t (2 : Fin 3) * 1024 + 1 * (x 2).val = (i 2).val; rw [e2, h2]; omega

/-- A weight window's block is the whole weight array at every point. -/
theorem wqblk_apply (c : Dev nD) (t : Fin cfg0.N) (x : S1024x256.Idx) :
    (iblk0 V c 3 t : Vec Ideal S1024x256 .f32) x = arr3 V c x := by
  obtain ⟨-, -, -, ⟨e0, e1⟩, -, -, -, -, -⟩ := idx_facts t
  unfold iblk0
  rw [View.read_apply]
  show V c main_arg3 _ = V c main_arg3 _
  congr 1
  funext a
  apply Fin.ext
  match a with
  | ⟨0, _⟩ => show win0_3.index t (0 : Fin 2) * 1024 + 1 * (x 0).val = (x 0).val; rw [e0]; omega
  | ⟨1, _⟩ => show win0_3.index t (1 : Fin 2) * 256 + 1 * (x 1).val = (x 1).val; rw [e1]; omega

/-- A weight window's block is the whole weight array at every point. -/
theorem wkblk_apply (c : Dev nD) (t : Fin cfg0.N) (x : S1024x256.Idx) :
    (iblk0 V c 4 t : Vec Ideal S1024x256 .f32) x = arr4 V c x := by
  obtain ⟨-, -, -, -, ⟨e0, e1⟩, -, -, -, -⟩ := idx_facts t
  unfold iblk0
  rw [View.read_apply]
  show V c main_arg4 _ = V c main_arg4 _
  congr 1
  funext a
  apply Fin.ext
  match a with
  | ⟨0, _⟩ => show win0_4.index t (0 : Fin 2) * 1024 + 1 * (x 0).val = (x 0).val; rw [e0]; omega
  | ⟨1, _⟩ => show win0_4.index t (1 : Fin 2) * 256 + 1 * (x 1).val = (x 1).val; rw [e1]; omega

/-- A weight window's block is the whole weight array at every point. -/
theorem wvblk_apply (c : Dev nD) (t : Fin cfg0.N) (x : S1024x128.Idx) :
    (iblk0 V c 5 t : Vec Ideal S1024x128 .f32) x = arr5 V c x := by
  obtain ⟨-, -, -, -, -, ⟨e0, e1⟩, -, -, -⟩ := idx_facts t
  unfold iblk0
  rw [View.read_apply]
  show V c main_arg5 _ = V c main_arg5 _
  congr 1
  funext a
  apply Fin.ext
  match a with
  | ⟨0, _⟩ => show win0_5.index t (0 : Fin 2) * 1024 + 1 * (x 0).val = (x 0).val; rw [e0]; omega
  | ⟨1, _⟩ => show win0_5.index t (1 : Fin 2) * 128 + 1 * (x 1).val = (x 1).val; rw [e1]; omega

/-! ## What each point writes back, the cover, and the three arrays -/

/-- Point `t` writes back, to window 6's array, block `t` of the sign bits of the projection of the arrays the region
finds: the payload at `(u, r, q)` reads row `r` of the input block and column `q` of the weights, which are row
`(t % 2) · 1024 + r` of batch element `t / 2` and column `q`, where the output block's entry sits. -/
theorem sq_flushed (c : Dev nD) (t : Fin cfg0.N) :
    (dat0 (F := Ideal) V c).flushed 6 t = ((cfg0.win 6).blk t).view.read (Elt Ideal) (Cert.Rewa.signs (V c main_arg0) (V c main_arg3)) := by
  show (cfg0.win 6).cut (grid0.coords t) ((dat0 (F := Ideal) V c).after 6 t) = _
  rw [after0_6]
  unfold out0_6
  rw [View.canon_unit_zero hz3]
  simp only [View.ld_unit_zero (S := S1x1024x1024) hz3, View.ld_unit_zero (S := S1024x256) hz2]
  obtain ⟨-, -, -, -, -, -, ⟨e0, e1, e2⟩, -, -⟩ := idx_facts t
  funext j
  obtain ⟨u, r, q, rfl⟩ : ∃ (u : Fin 1) (r : Fin 1024) (q : Fin 256), j = ix3 u r q := ⟨j 0, j 1, j 2, eq_ix3 j⟩
  show k0_pay4 (F := Ideal) (iblk0 V c 0 t) (iblk0 V c 3 t) (ix3 u r q)
    = Cert.Rewa.bitOf (∑ k : Fin 1024, arr0 V c (ix3 (((cfg0.win 6).blk t).view.emb (ix3 u r q) 0) (((cfg0.win 6).blk t).view.emb (ix3 u r q) 1) k) * arr3 V c (ix2 k (((cfg0.win 6).blk t).view.emb (ix3 u r q) 2)))
  refine (pay_sq_apply _ _ u r q).trans ?_
  refine congrArg Cert.Rewa.bitOf (Finset.sum_congr rfl fun k _ => ?_)
  have hu : u.val = 0 := by omega
  refine congrArg₂ (· * ·) (qblk_apply V c t _ _ ?_ ?_ rfl) ((wqblk_apply V c t _).trans (congrArg (arr3 V c) ?_))
  · show win0_6.index t (0 : Fin 3) * 1 + 1 * u.val = t.val / 2 + 0
    rw [e0]; omega
  · show win0_6.index t (1 : Fin 3) * 1024 + 1 * r.val = t.val % 2 * 1024 + r.val
    rw [e1]; omega
  · funext a
    apply Fin.ext
    match a with
    | ⟨0, _⟩ => rfl
    | ⟨1, _⟩ => show q.val = win0_6.index t (2 : Fin 3) * 256 + 1 * q.val; rw [e2]; omega

/-- An index of window 6's array is in point `t`'s block iff each coordinate is in the block's range on its axis. -/
theorem sq_mem_blk (t : Fin cfg0.N) (i : S8x2048x256.Idx) :
    i ∈ ((cfg0.win 6).blk t).view.set ↔ ∀ a : Fin 3, win0_6.index t a * S1x1024x256.size a ≤ (i a).val ∧ (i a).val < win0_6.index t a * S1x1024x256.size a + S1x1024x256.size a := by
  show i ∈ ((View.whole main_v0_0).slice (win0_6.rect t)).set ↔ _
  rw [View.set_slice_whole, Rect.mem_set_unit]
  exact Iff.rfl

/-- Every entry `(b, n, ·)` is in the block of the point `b · 2 + n / 1024`. -/
theorem sq_cover (i : S8x2048x256.Idx) :
    ∃ t : Fin cfg0.N, (cfg0.win 6).flush t = true ∧ i ∈ ((cfg0.win 6).blk t).view.set := by
  have h0 : (i 0).val < 8 := (i 0).isLt
  have h1 : (i 1).val < 2048 := (i 1).isLt
  have h2 : (i 2).val < 256 := (i 2).isLt
  obtain ⟨t, ht⟩ : ∃ t : Fin cfg0.N, t.val = (i 0).val * 2 + (i 1).val / 1024 :=
    ⟨⟨(i 0).val * 2 + (i 1).val / 1024, by rw [show cfg0.N = 16 from N_0]; omega⟩, rfl⟩
  obtain ⟨-, -, -, -, -, -, ⟨e0, e1, e2⟩, -, -⟩ := idx_facts t
  refine ⟨t, flush0_6 t, ?_⟩
  rw [sq_mem_blk]
  intro a
  match a with
  | ⟨0, _⟩ => show win0_6.index t (0 : Fin 3) * 1 ≤ (i 0).val ∧ (i 0).val < win0_6.index t (0 : Fin 3) * 1 + 1; rw [e0, ht]; omega
  | ⟨1, _⟩ => show win0_6.index t (1 : Fin 3) * 1024 ≤ (i 1).val ∧ (i 1).val < win0_6.index t (1 : Fin 3) * 1024 + 1024; rw [e1, ht]; omega
  | ⟨2, _⟩ => show win0_6.index t (2 : Fin 3) * 256 ≤ (i 2).val ∧ (i 2).val < win0_6.index t (2 : Fin 3) * 256 + 256; rw [e2]; omega

/-- Point `t` writes back, to window 7's array, block `t` of the sign bits of the projection of the arrays the region
finds: the payload at `(u, r, q)` reads row `r` of the input block and column `q` of the weights, which are row
`(t % 2) · 1024 + r` of batch element `t / 2` and column `q`, where the output block's entry sits. -/
theorem sk_flushed (c : Dev nD) (t : Fin cfg0.N) :
    (dat0 (F := Ideal) V c).flushed 7 t = ((cfg0.win 7).blk t).view.read (Elt Ideal) (Cert.Rewa.signs (V c main_arg1) (V c main_arg4)) := by
  show (cfg0.win 7).cut (grid0.coords t) ((dat0 (F := Ideal) V c).after 7 t) = _
  rw [after0_7]
  unfold out0_7
  rw [View.canon_unit_zero hz3]
  simp only [View.ld_unit_zero (S := S1x1024x1024) hz3, View.ld_unit_zero (S := S1024x256) hz2]
  obtain ⟨-, -, -, -, -, -, -, ⟨e0, e1, e2⟩, -⟩ := idx_facts t
  funext j
  obtain ⟨u, r, q, rfl⟩ : ∃ (u : Fin 1) (r : Fin 1024) (q : Fin 256), j = ix3 u r q := ⟨j 0, j 1, j 2, eq_ix3 j⟩
  show k0_pay1 (F := Ideal) (k0_pay5 (F := Ideal) (iblk0 V c 1 t) (iblk0 V c 4 t)) (ix3 u r q)
    = Cert.Rewa.bitOf (∑ k : Fin 1024, arr1 V c (ix3 (((cfg0.win 7).blk t).view.emb (ix3 u r q) 0) (((cfg0.win 7).blk t).view.emb (ix3 u r q) 1) k) * arr4 V c (ix2 k (((cfg0.win 7).blk t).view.emb (ix3 u r q) 2)))
  refine (pay_sk_apply _ _ u r q).trans ?_
  refine congrArg Cert.Rewa.bitOf (Finset.sum_congr rfl fun k _ => ?_)
  have hu : u.val = 0 := by omega
  refine congrArg₂ (· * ·) (kblk_apply V c t _ _ ?_ ?_ rfl) ((wkblk_apply V c t _).trans (congrArg (arr4 V c) ?_))
  · show win0_7.index t (0 : Fin 3) * 1 + 1 * u.val = t.val / 2 + 0
    rw [e0]; omega
  · show win0_7.index t (1 : Fin 3) * 1024 + 1 * r.val = t.val % 2 * 1024 + r.val
    rw [e1]; omega
  · funext a
    apply Fin.ext
    match a with
    | ⟨0, _⟩ => rfl
    | ⟨1, _⟩ => show q.val = win0_7.index t (2 : Fin 3) * 256 + 1 * q.val; rw [e2]; omega

/-- An index of window 7's array is in point `t`'s block iff each coordinate is in the block's range on its axis. -/
theorem sk_mem_blk (t : Fin cfg0.N) (i : S8x2048x256.Idx) :
    i ∈ ((cfg0.win 7).blk t).view.set ↔ ∀ a : Fin 3, win0_7.index t a * S1x1024x256.size a ≤ (i a).val ∧ (i a).val < win0_7.index t a * S1x1024x256.size a + S1x1024x256.size a := by
  show i ∈ ((View.whole main_v0_1).slice (win0_7.rect t)).set ↔ _
  rw [View.set_slice_whole, Rect.mem_set_unit]
  exact Iff.rfl

/-- Every entry `(b, n, ·)` is in the block of the point `b · 2 + n / 1024`. -/
theorem sk_cover (i : S8x2048x256.Idx) :
    ∃ t : Fin cfg0.N, (cfg0.win 7).flush t = true ∧ i ∈ ((cfg0.win 7).blk t).view.set := by
  have h0 : (i 0).val < 8 := (i 0).isLt
  have h1 : (i 1).val < 2048 := (i 1).isLt
  have h2 : (i 2).val < 256 := (i 2).isLt
  obtain ⟨t, ht⟩ : ∃ t : Fin cfg0.N, t.val = (i 0).val * 2 + (i 1).val / 1024 :=
    ⟨⟨(i 0).val * 2 + (i 1).val / 1024, by rw [show cfg0.N = 16 from N_0]; omega⟩, rfl⟩
  obtain ⟨-, -, -, -, -, -, -, ⟨e0, e1, e2⟩, -⟩ := idx_facts t
  refine ⟨t, flush0_7 t, ?_⟩
  rw [sk_mem_blk]
  intro a
  match a with
  | ⟨0, _⟩ => show win0_7.index t (0 : Fin 3) * 1 ≤ (i 0).val ∧ (i 0).val < win0_7.index t (0 : Fin 3) * 1 + 1; rw [e0, ht]; omega
  | ⟨1, _⟩ => show win0_7.index t (1 : Fin 3) * 1024 ≤ (i 1).val ∧ (i 1).val < win0_7.index t (1 : Fin 3) * 1024 + 1024; rw [e1, ht]; omega
  | ⟨2, _⟩ => show win0_7.index t (2 : Fin 3) * 256 ≤ (i 2).val ∧ (i 2).val < win0_7.index t (2 : Fin 3) * 256 + 256; rw [e2]; omega

/-- Point `t` writes back, to window 8's array, block `t` of the projection of the arrays the region
finds: the payload at `(u, r, q)` reads row `r` of the input block and column `q` of the weights, which are row
`(t % 2) · 1024 + r` of batch element `t / 2` and column `q`, where the output block's entry sits. -/
theorem vp_flushed (c : Dev nD) (t : Fin cfg0.N) :
    (dat0 (F := Ideal) V c).flushed 8 t = ((cfg0.win 8).blk t).view.read (Elt Ideal) (Cert.Rewa.proj128 (V c main_arg2) (V c main_arg5)) := by
  show (cfg0.win 8).cut (grid0.coords t) ((dat0 (F := Ideal) V c).after 8 t) = _
  rw [after0_8]
  unfold out0_8
  rw [View.canon_unit_zero hz3]
  simp only [View.ld_unit_zero (S := S1x1024x1024) hz3, View.ld_unit_zero (S := S1024x128) hz2]
  obtain ⟨-, -, -, -, -, -, -, -, ⟨e0, e1, e2⟩⟩ := idx_facts t
  funext j
  obtain ⟨u, r, q, rfl⟩ : ∃ (u : Fin 1) (r : Fin 1024) (q : Fin 128), j = ix3 u r q := ⟨j 0, j 1, j 2, eq_ix3 j⟩
  show k0_pay2 (F := Ideal) (k0_pay3 (F := Ideal) (iblk0 V c 2 t) (iblk0 V c 5 t)) (ix3 u r q)
    = ∑ k : Fin 1024, arr2 V c (ix3 (((cfg0.win 8).blk t).view.emb (ix3 u r q) 0) (((cfg0.win 8).blk t).view.emb (ix3 u r q) 1) k) * arr5 V c (ix2 k (((cfg0.win 8).blk t).view.emb (ix3 u r q) 2))
  refine (pay_vp_apply _ _ u r q).trans ?_
  refine (Finset.sum_congr rfl fun k _ => ?_)
  have hu : u.val = 0 := by omega
  refine congrArg₂ (· * ·) (vblk_apply V c t _ _ ?_ ?_ rfl) ((wvblk_apply V c t _).trans (congrArg (arr5 V c) ?_))
  · show win0_8.index t (0 : Fin 3) * 1 + 1 * u.val = t.val / 2 + 0
    rw [e0]; omega
  · show win0_8.index t (1 : Fin 3) * 1024 + 1 * r.val = t.val % 2 * 1024 + r.val
    rw [e1]; omega
  · funext a
    apply Fin.ext
    match a with
    | ⟨0, _⟩ => rfl
    | ⟨1, _⟩ => show q.val = win0_8.index t (2 : Fin 3) * 128 + 1 * q.val; rw [e2]; omega

/-- An index of window 8's array is in point `t`'s block iff each coordinate is in the block's range on its axis. -/
theorem vp_mem_blk (t : Fin cfg0.N) (i : S8x2048x128.Idx) :
    i ∈ ((cfg0.win 8).blk t).view.set ↔ ∀ a : Fin 3, win0_8.index t a * S1x1024x128.size a ≤ (i a).val ∧ (i a).val < win0_8.index t a * S1x1024x128.size a + S1x1024x128.size a := by
  show i ∈ ((View.whole main_v0_2).slice (win0_8.rect t)).set ↔ _
  rw [View.set_slice_whole, Rect.mem_set_unit]
  exact Iff.rfl

/-- Every entry `(b, n, ·)` is in the block of the point `b · 2 + n / 1024`. -/
theorem vp_cover (i : S8x2048x128.Idx) :
    ∃ t : Fin cfg0.N, (cfg0.win 8).flush t = true ∧ i ∈ ((cfg0.win 8).blk t).view.set := by
  have h0 : (i 0).val < 8 := (i 0).isLt
  have h1 : (i 1).val < 2048 := (i 1).isLt
  have h2 : (i 2).val < 128 := (i 2).isLt
  obtain ⟨t, ht⟩ : ∃ t : Fin cfg0.N, t.val = (i 0).val * 2 + (i 1).val / 1024 :=
    ⟨⟨(i 0).val * 2 + (i 1).val / 1024, by rw [show cfg0.N = 16 from N_0]; omega⟩, rfl⟩
  obtain ⟨-, -, -, -, -, -, -, -, ⟨e0, e1, e2⟩⟩ := idx_facts t
  refine ⟨t, flush0_8 t, ?_⟩
  rw [vp_mem_blk]
  intro a
  match a with
  | ⟨0, _⟩ => show win0_8.index t (0 : Fin 3) * 1 ≤ (i 0).val ∧ (i 0).val < win0_8.index t (0 : Fin 3) * 1 + 1; rw [e0, ht]; omega
  | ⟨1, _⟩ => show win0_8.index t (1 : Fin 3) * 1024 ≤ (i 1).val ∧ (i 1).val < win0_8.index t (1 : Fin 3) * 1024 + 1024; rw [e1, ht]; omega
  | ⟨2, _⟩ => show win0_8.index t (2 : Fin 3) * 128 ≤ (i 2).val ∧ (i 2).val < win0_8.index t (2 : Fin 3) * 128 + 128; rw [e2]; omega

/-- The encoded-query array after the region: the sign bits of `Q · Wq`. -/
theorem sq_arr (c : Dev nD) :
    (dat0 (F := Ideal) V c).arrAt 6 cfg0.N = Cert.Rewa.signs (V c main_arg0) (V c main_arg3) :=
  (dat0 (F := Ideal) V c).arrAt_eq_of_cover 6 (Cert.Rewa.signs (V c main_arg0) (V c main_arg3)) (fun t _ => sq_flushed V c t) sq_cover

/-- The encoded-key array after the region: the sign bits of `K · Wk`. -/
theorem sk_arr (c : Dev nD) :
    (dat0 (F := Ideal) V c).arrAt 7 cfg0.N = Cert.Rewa.signs (V c main_arg1) (V c main_arg4) :=
  (dat0 (F := Ideal) V c).arrAt_eq_of_cover 7 (Cert.Rewa.signs (V c main_arg1) (V c main_arg4)) (fun t _ => sk_flushed V c t) sk_cover

/-- The projected-value array after the region: `V · Wv`. -/
theorem vp_arr (c : Dev nD) :
    (dat0 (F := Ideal) V c).arrAt 8 cfg0.N = Cert.Rewa.proj128 (V c main_arg2) (V c main_arg5) :=
  (dat0 (F := Ideal) V c).arrAt_eq_of_cover 8 (Cert.Rewa.proj128 (V c main_arg2) (V c main_arg5)) (fun t _ => vp_flushed V c t) vp_cover

end Cert.KernelIdeal.Region0

end
-- ==== Proof.Region1.lean ====
/-
  REGION 1 (the attention call) as two whole-array equations, at any contents `V` the region is entered with.

  * The body's attention payload, read at a tile index `(r, j)`: the product of query row `r` with key row `j` over the
    256 code bits, scaled by `2⁻⁵`; the row maximum as the fold of `max` from `-∞` and the row sum as a `Fin`-indexed sum,
    each kept as a column `[512] → [512, 1]` and spread back `[512, 1] → [512, 2048]`; so the tile is the softmax of
    the scores along the key axis (`pay1_apply`). The stored blocks are that tile under a unit batch axis (`pay2_apply`)
    and its product with the value block (`pay3_apply`).
  * A query block holds rows `i·512 …` of one batch element, the key and value blocks hold all of that batch element's
    rows: so block row `r` computes the specification's row `(b, i·512 + r)` (`attn_at`, `out_at`).
  * What each point writes back is its block of the specification's function (`flushed3_eq`, `flushed4_eq`), the blocks
    `(b, n / 512, 0)` cover the arrays (`cover3`, `cover4`), hence `attn_arr` and `out_arr`.
-/
import proofs.«414972_j84293028151338_3_alg».proof.Proof.Gen.KernelIdeal.Frame
import proofs.«414972_j84293028151338_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region1

open Idealize.ShloMosaic Idealize.ShloMosaic.TcCoe Idealize.SL.Sem Idealize.ShloMosaic.ValueIdx
open Cert.KernelIdeal Cert.KernelIdeal.Gen

/-! ## The keepdims column forms: a vector made a column, a column spread along the rows -/

section Columns
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Columns

/-! ## The two contractions read at an index -/

/- The operand indices of the score product at output index `(r, j)` and contraction position `k`: the left operand is read at
   `(r, k)`, the right one at `(j, k)` (both contract their second axis). One lemma per operand axis. -/
theorem lhsS_0 (i : S512x2048.Idx) (q : dot_S512x256_S2048x256_S512x2048_1_1_0_0_n_n.contr.Idx) :
    (dot_S512x256_S2048x256_S512x2048_1_1_0_0_n_n.lhsIdx i q 0).val = (i 0).val := by
  unfold DotDims.lhsIdx
  rw [dif_neg (show ¬(0 : Fin S512x256.rank) ∈ dot_S512x256_S2048x256_S512x2048_1_1_0_0_n_n.lhsBatch by decide), dif_pos (show (0 : Fin S512x256.rank) ∈ dot_S512x256_S2048x256_S512x2048_1_1_0_0_n_n.lhsNonContracting by decide)]
  rfl
theorem lhsS_1 (i : S512x2048.Idx) (q : dot_S512x256_S2048x256_S512x2048_1_1_0_0_n_n.contr.Idx) :
    (dot_S512x256_S2048x256_S512x2048_1_1_0_0_n_n.lhsIdx i q 1).val = (q ⟨0, by decide⟩).val :=
  dot_S512x256_S2048x256_S512x2048_1_1_0_0_n_n.lhsIdx_val_of_single rfl i q
theorem rhsS_0 (i : S512x2048.Idx) (q : dot_S512x256_S2048x256_S512x2048_1_1_0_0_n_n.contr.Idx) :
    (dot_S512x256_S2048x256_S512x2048_1_1_0_0_n_n.rhsIdx i q 0).val = (i 1).val := by
  unfold DotDims.rhsIdx
  rw [dif_neg (show ¬(0 : Fin S2048x256.rank) ∈ dot_S512x256_S2048x256_S512x2048_1_1_0_0_n_n.rhsBatch by decide), dif_pos (show (0 : Fin S2048x256.rank) ∈ dot_S512x256_S2048x256_S512x2048_1_1_0_0_n_n.rhsNonContracting by decide)]
  rfl
theorem rhsS_1 (i : S512x2048.Idx) (q : dot_S512x256_S2048x256_S512x2048_1_1_0_0_n_n.contr.Idx) :
    (dot_S512x256_S2048x256_S512x2048_1_1_0_0_n_n.rhsIdx i q 1).val = (q ⟨0, by decide⟩).val :=
  dot_S512x256_S2048x256_S512x2048_1_1_0_0_n_n.rhsIdx_val_of_single rfl i q

/-- The Hamming product of a tile: row `r` of the left operand against row `j` of the right one, both contracted on
    their second axis, into the zero accumulator. -/
theorem scores_apply (a : FVec Ideal S512x256 .bf16) (b : FVec Ideal S2048x256 .bf16) (r : Fin 512) (j : Fin 2048) :
    matmul dot_S512x256_S2048x256_S512x2048_1_1_0_0_n_n none a b (constant (F := Ideal) S512x2048 .f32 0x00000000#32) (ix2 r j)
      = ∑ k : Fin 256, a (ix2 r k) * b (ix2 j k) := by
  simp only [matmul]
  rw [Ideal.matmul_constant_zero_apply, ← Equiv.sum_comp (ValueIdx.contrEquiv1 dot_S512x256_S2048x256_S512x2048_1_1_0_0_n_n 256 rfl rfl).symm]
  refine Finset.sum_congr rfl fun k _ => ?_
  have hk := ValueIdx.contrEquiv1_symm_val dot_S512x256_S2048x256_S512x2048_1_1_0_0_n_n 256 rfl rfl k
  have el : dot_S512x256_S2048x256_S512x2048_1_1_0_0_n_n.lhsIdx (ix2 r j) ((ValueIdx.contrEquiv1 dot_S512x256_S2048x256_S512x2048_1_1_0_0_n_n 256 rfl rfl).symm k) = ix2 r k := funext fun ax => Fin.ext (by
    match ax with
    | ⟨0, _⟩ => exact lhsS_0 _ _
    | ⟨1, _⟩ => exact (lhsS_1 _ _).trans hk)
  have er : dot_S512x256_S2048x256_S512x2048_1_1_0_0_n_n.rhsIdx (ix2 r j) ((ValueIdx.contrEquiv1 dot_S512x256_S2048x256_S512x2048_1_1_0_0_n_n 256 rfl rfl).symm k) = ix2 j k := funext fun ax => Fin.ext (by
    match ax with
    | ⟨0, _⟩ => exact rhsS_0 _ _
    | ⟨1, _⟩ => exact (rhsS_1 _ _).trans hk)
  rw [el, er]

/- The operand indices of the weighted sum at output index `(r, h)` and contraction position `j`: the weights are read at
   `(r, j)`, the values at `(j, h)`. One lemma per operand axis. -/
theorem lhsO_0 (i : S512x128.Idx) (q : dot_S512x2048_S2048x128_S512x128_1_0_0_1_n_n.contr.Idx) :
    (dot_S512x2048_S2048x128_S512x128_1_0_0_1_n_n.lhsIdx i q 0).val = (i 0).val := by
  unfold DotDims.lhsIdx
  rw [dif_neg (show ¬(0 : Fin S512x2048.rank) ∈ dot_S512x2048_S2048x128_S512x128_1_0_0_1_n_n.lhsBatch by decide), dif_pos (show (0 : Fin S512x2048.rank) ∈ dot_S512x2048_S2048x128_S512x128_1_0_0_1_n_n.lhsNonContracting by decide)]
  rfl
theorem lhsO_1 (i : S512x128.Idx) (q : dot_S512x2048_S2048x128_S512x128_1_0_0_1_n_n.contr.Idx) :
    (dot_S512x2048_S2048x128_S512x128_1_0_0_1_n_n.lhsIdx i q 1).val = (q ⟨0, by decide⟩).val :=
  dot_S512x2048_S2048x128_S512x128_1_0_0_1_n_n.lhsIdx_val_of_single rfl i q
theorem rhsO_0 (i : S512x128.Idx) (q : dot_S512x2048_S2048x128_S512x128_1_0_0_1_n_n.contr.Idx) :
    (dot_S512x2048_S2048x128_S512x128_1_0_0_1_n_n.rhsIdx i q 0).val = (q ⟨0, by decide⟩).val :=
  dot_S512x2048_S2048x128_S512x128_1_0_0_1_n_n.rhsIdx_val_of_single rfl i q
theorem rhsO_1 (i : S512x128.Idx) (q : dot_S512x2048_S2048x128_S512x128_1_0_0_1_n_n.contr.Idx) :
    (dot_S512x2048_S2048x128_S512x128_1_0_0_1_n_n.rhsIdx i q 1).val = (i 1).val := by
  unfold DotDims.rhsIdx
  rw [dif_neg (show ¬(1 : Fin S2048x128.rank) ∈ dot_S512x2048_S2048x128_S512x128_1_0_0_1_n_n.rhsBatch by decide), dif_pos (show (1 : Fin S2048x128.rank) ∈ dot_S512x2048_S2048x128_S512x128_1_0_0_1_n_n.rhsNonContracting by decide)]
  rfl

/-- The weighted sum of a tile: row `r` of the weights against column `h` of the values, into the zero accumulator. -/
theorem mixed_apply (a : FVec Ideal S512x2048 .bf16) (b : FVec Ideal S2048x128 .bf16) (r : Fin 512) (h : Fin 128) :
    matmul dot_S512x2048_S2048x128_S512x128_1_0_0_1_n_n none a b (constant (F := Ideal) S512x128 .f32 0x00000000#32) (ix2 r h)
      = ∑ j : Fin 2048, a (ix2 r j) * b (ix2 j h) := by
  simp only [matmul]
  rw [Ideal.matmul_constant_zero_apply, ← Equiv.sum_comp (ValueIdx.contrEquiv1 dot_S512x2048_S2048x128_S512x128_1_0_0_1_n_n 2048 rfl rfl).symm]
  refine Finset.sum_congr rfl fun k _ => ?_
  have hk := ValueIdx.contrEquiv1_symm_val dot_S512x2048_S2048x128_S512x128_1_0_0_1_n_n 2048 rfl rfl k
  have el : dot_S512x2048_S2048x128_S512x128_1_0_0_1_n_n.lhsIdx (ix2 r h) ((ValueIdx.contrEquiv1 dot_S512x2048_S2048x128_S512x128_1_0_0_1_n_n 2048 rfl rfl).symm k) = ix2 r k := funext fun ax => Fin.ext (by
    match ax with
    | ⟨0, _⟩ => exact lhsO_0 _ _
    | ⟨1, _⟩ => exact (lhsO_1 _ _).trans hk)
  have er : dot_S512x2048_S2048x128_S512x128_1_0_0_1_n_n.rhsIdx (ix2 r h) ((ValueIdx.contrEquiv1 dot_S512x2048_S2048x128_S512x128_1_0_0_1_n_n 2048 rfl rfl).symm k) = ix2 k h := funext fun ax => Fin.ext (by
    match ax with
    | ⟨0, _⟩ => exact (rhsO_0 _ _).trans hk
    | ⟨1, _⟩ => exact rhsO_1 _ _)
  rw [el, er]

/-! ## The attention tile at an index -/

/-- The index a reduction over the key axis reads: row `r` with the key coordinate put back. -/
theorem lift_row (r : Fin 512) (k : Fin 2048) : reduces_S512x2048_S512.lift (ix1 r) k = ix2 r k :=
  funext fun ax => Fin.ext (by
    match ax with
    | ⟨0, _⟩ => rfl
    | ⟨1, _⟩ => rfl)

/-- The row maxima of a tile, kept as a column and spread back along the rows. -/
def rowMaxB (s : FVec Ideal S512x2048 .f32) : FVec Ideal S512x2048 .f32 :=
  broadcastTo S512x2048 (shapeCast S512x1 (multiReduction (F := Ideal) .maximumf [1] S512 s 0xFF800000#32 reduces_S512x2048_S512 (.inl rfl) rfl) shapeCasts_S512_S512x1) broadcasts_S512x1_S512x2048

/-- The row sums of a tile, kept as a column and spread back along the rows. -/
def rowSumB (e : FVec Ideal S512x2048 .f32) : FVec Ideal S512x2048 .f32 :=
  broadcastTo S512x2048 (shapeCast S512x1 (multiReduction (F := Ideal) .add [1] S512 e 0x00000000#32 reduces_S512x2048_S512 (.inl rfl) rfl) shapeCasts_S512_S512x1) broadcasts_S512x1_S512x2048

/-- The softmax of a tile along its rows. -/
def softTile (s : FVec Ideal S512x2048 .f32) : FVec Ideal S512x2048 .f32 :=
  divf (exp (subf s (rowMaxB s))) (rowSumB (exp (subf s (rowMaxB s))))

/-- The scaled Hamming products of a query block against a key block. -/
def scoreTile (x0 : Vec Ideal S1x512x256 .bf16) (x1 : Vec Ideal S1x2048x256 .bf16) : FVec Ideal S512x2048 .f32 :=
  mulf (matmul dot_S512x256_S2048x256_S512x2048_1_1_0_0_n_n none (shapeCast S512x256 x0 shapeCasts_S1x512x256_S512x256 : FVec Ideal S512x256 .bf16)
      (shapeCast S2048x256 x1 shapeCasts_S1x2048x256_S2048x256 : FVec Ideal S2048x256 .bf16) (constant (F := Ideal) S512x2048 .f32 0x00000000#32))
    (broadcast S512x2048 (Scalar.ofBits (F := Ideal) .f32 0x3D000000#32))

theorem rowMaxB_apply (s : FVec Ideal S512x2048 .f32) (r : Fin 512) (j : Fin 2048) :
    rowMaxB s (ix2 r j) = (Finset.univ : Finset (Fin 2048)).fold max (Ideal.ofBits .f32 0xFF800000#32) (fun j' => s (ix2 r j')) := by
  unfold rowMaxB
  rw [broadcastTo_a1_ab_apply, shapeCast_a_a1_apply]
  refine (Ideal.multiReduction_maximumf_single s 0xFF800000#32 reduces_S512x2048_S512 (.inl rfl) rfl (ix1 r)).trans ?_
  have e : (s ∘ reduces_S512x2048_S512.lift (ix1 r)) = fun j' : Fin 2048 => s (ix2 r j') :=
    funext fun j' => congrArg s (lift_row r j')
  exact congrArg (fun f => (Finset.univ : Finset (Fin 2048)).fold max (Ideal.ofBits .f32 0xFF800000#32) f) e

theorem rowSumB_apply (e : FVec Ideal S512x2048 .f32) (r : Fin 512) (j : Fin 2048) :
    rowSumB e (ix2 r j) = ∑ j' : Fin 2048, e (ix2 r j') := by
  unfold rowSumB
  rw [broadcastTo_a1_ab_apply, shapeCast_a_a1_apply]
  refine (Ideal.multiReduction_add_single e 0x00000000#32 reduces_S512x2048_S512 (.inl rfl) rfl (ix1 r)).trans ?_
  exact Finset.sum_congr rfl fun k _ => congrArg e (lift_row r k)

theorem exp_apply {s : Shape} {φ : FTy} (a : FVec Ideal s φ) (i : s.Idx) : exp a i = Ideal.exp (a i) := rfl

theorem softTile_apply (s : FVec Ideal S512x2048 .f32) (r : Fin 512) (j : Fin 2048) :
    softTile s (ix2 r j)
      = Ideal.div (Ideal.exp (s (ix2 r j) - (Finset.univ : Finset (Fin 2048)).fold max (Ideal.ofBits .f32 0xFF800000#32) (fun j' => s (ix2 r j'))))
          (∑ j' : Fin 2048, Ideal.exp (s (ix2 r j') - (Finset.univ : Finset (Fin 2048)).fold max (Ideal.ofBits .f32 0xFF800000#32) (fun j'' => s (ix2 r j'')))) := by
  unfold softTile
  rw [divf_apply, rowSumB_apply, exp_apply, subf_apply, rowMaxB_apply]
  refine congrArg _ (Finset.sum_congr rfl fun j' _ => ?_)
  rw [exp_apply, subf_apply, rowMaxB_apply]

theorem scoreTile_apply (x0 : Vec Ideal S1x512x256 .bf16) (x1 : Vec Ideal S1x2048x256 .bf16) (r : Fin 512) (j : Fin 2048) :
    scoreTile x0 x1 (ix2 r j) = (∑ k : Fin 256, x0 (ix3 0 r k) * x1 (ix3 0 j k)) * Ideal.ofBits .f32 0x3D000000#32 := by
  unfold scoreTile
  rw [mulf_apply, scores_apply, broadcast_apply]
  refine congrArg (· * _) (Finset.sum_congr rfl fun k _ => ?_)
  rw [shapeCast_1ab_ab_apply, shapeCast_1ab_ab_apply]

/-- The body's attention payload is the row softmax of the score tile. -/
theorem pay1_eq (x0 : Vec Ideal S1x512x256 .bf16) (x1 : Vec Ideal S1x2048x256 .bf16) :
    k1_pay1 (F := Ideal) x0 x1 = softTile (scoreTile x0 x1) := rfl

/-- The attention payload at a tile index: the softmax, along the key axis, of the scaled Hamming products. -/
theorem pay1_apply (x0 : Vec Ideal S1x512x256 .bf16) (x1 : Vec Ideal S1x2048x256 .bf16) (r : Fin 512) (j : Fin 2048) :
    k1_pay1 (F := Ideal) x0 x1 (ix2 r j)
      = Ideal.div (Ideal.exp (scoreTile x0 x1 (ix2 r j) - (Finset.univ : Finset (Fin 2048)).fold max (Ideal.ofBits .f32 0xFF800000#32) (fun j' => scoreTile x0 x1 (ix2 r j'))))
          (∑ j' : Fin 2048, Ideal.exp (scoreTile x0 x1 (ix2 r j') - (Finset.univ : Finset (Fin 2048)).fold max (Ideal.ofBits .f32 0xFF800000#32) (fun j'' => scoreTile x0 x1 (ix2 r j'')))) := by
  rw [pay1_eq, softTile_apply]

/-- The stored attention block is the tile with a unit batch axis in front. -/
theorem pay2_apply (x0 : Vec Ideal S1x512x256 .bf16) (x1 : Vec Ideal S1x2048x256 .bf16) (u : Fin 1) (r : Fin 512) (j : Fin 2048) :
    k1_pay2 (F := Ideal) x0 x1 (ix3 u r j) = k1_pay1 (F := Ideal) x0 x1 (ix2 r j) := by
  unfold k1_pay2
  exact shapeCast_ab_1ab_apply _ _ u r j

/-- The stored output block: each row of the attention tile against each column of the value block. -/
theorem pay3_apply (x0 : Vec Ideal S1x512x256 .bf16) (x1 : Vec Ideal S1x2048x256 .bf16) (x2 : Vec Ideal S1x2048x128 .f32)
    (u : Fin 1) (r : Fin 512) (h : Fin 128) :
    k1_pay3 (F := Ideal) x0 x1 x2 (ix3 u r h) = ∑ j : Fin 2048, k1_pay1 (F := Ideal) x0 x1 (ix2 r j) * x2 (ix3 0 j h) := by
  unfold k1_pay3
  refine (shapeCast_ab_1ab_apply _ _ u r h).trans ?_
  rw [mixed_apply]
  refine Finset.sum_congr rfl fun j _ => ?_
  rw [truncf_apply, truncf_apply, shapeCast_1ab_ab_apply]

/-! ## The specification's functions at an index -/

theorem softmax_apply (s : Cert.Rewa.SAttn.Idx → EReal) (b : Fin 8) (n : Fin 2048) (j : Fin 2048) :
    Cert.Rewa.softmax s (ix3 b n j)
      = Ideal.div (Ideal.exp (s (ix3 b n j) - (Finset.univ : Finset (Fin 2048)).fold max (Ideal.ofBits .f32 0xFF800000#32) (fun j' => s (ix3 b n j'))))
          (∑ j' : Fin 2048, Ideal.exp (s (ix3 b n j') - (Finset.univ : Finset (Fin 2048)).fold max (Ideal.ofBits .f32 0xFF800000#32) (fun j'' => s (ix3 b n j'')))) := rfl

theorem scoreK_hdot_apply (sq sk : Cert.Rewa.SBits.Idx → EReal) (b : Fin 8) (n : Fin 2048) (j : Fin 2048) :
    Cert.Rewa.scoreK (Cert.Rewa.hdot sq sk) (ix3 b n j)
      = (∑ k : Fin 256, sq (ix3 b n k) * sk (ix3 b j k)) * Ideal.ofBits .f32 0x3D000000#32 := rfl

theorem mix_apply (a : Cert.Rewa.SAttn.Idx → EReal) (vp : Cert.Rewa.SHead.Idx → EReal) (b : Fin 8) (n : Fin 2048) (h : Fin 128) :
    Cert.Rewa.mix a vp (ix3 b n h) = ∑ j : Fin 2048, a (ix3 b n j) * vp (ix3 b j h) := rfl

/-! ## A block's payload is the specification's function at the rows the block holds -/

/-- When the query block's row `r` is row `n` of batch element `b` and the key block is all of batch element `b`,
    row `r` of the attention tile is row `(b, n)` of the specification's attention weights. -/
theorem pay1_block (sq sk : Cert.Rewa.SBits.Idx → EReal) (x0 : Vec Ideal S1x512x256 .bf16) (x1 : Vec Ideal S1x2048x256 .bf16)
    (b : Fin 8) (n : Fin 2048) (r : Fin 512) (h0 : ∀ k : Fin 256, x0 (ix3 0 r k) = sq (ix3 b n k))
    (h1 : ∀ (j : Fin 2048) (k : Fin 256), x1 (ix3 0 j k) = sk (ix3 b j k)) (j : Fin 2048) :
    k1_pay1 (F := Ideal) x0 x1 (ix2 r j) = Cert.Rewa.softmax (Cert.Rewa.scoreK (Cert.Rewa.hdot sq sk)) (ix3 b n j) := by
  have hs : ∀ j' : Fin 2048, scoreTile x0 x1 (ix2 r j') = Cert.Rewa.scoreK (Cert.Rewa.hdot sq sk) (ix3 b n j') := fun j' => by
    rw [scoreTile_apply, scoreK_hdot_apply]
    refine congrArg (· * _) (Finset.sum_congr rfl fun k _ => ?_)
    rw [h0 k, h1 j' k]
  rw [pay1_apply, softmax_apply]
  simp only [hs]

/-! ## From blocks to the arrays -/

/-- Row `r` of the stored attention block, when the block holds rows `q·512 …` of batch element `b`, is the
    specification's attention weights at the array index under it. -/
theorem attn_at (sq sk : Cert.Rewa.SBits.Idx → EReal) (x0 : Vec Ideal S1x512x256 .bf16) (x1 : Vec Ideal S1x2048x256 .bf16)
    (b : Fin 8) (q : Nat)
    (h0 : ∀ (r : Fin 512) (k : Fin 256) (n : Fin 2048), n.val = q * 512 + r.val → x0 (ix3 0 r k) = sq (ix3 b n k))
    (h1 : ∀ (j : Fin 2048) (k : Fin 256), x1 (ix3 0 j k) = sk (ix3 b j k))
    (y : S1x512x2048.Idx) (i : Cert.Rewa.SAttn.Idx) (hi0 : (i 0).val = b.val) (hi1 : (i 1).val = q * 512 + (y 1).val)
    (hi2 : (i 2).val = (y 2).val) :
    k1_pay2 (F := Ideal) x0 x1 y = Cert.Rewa.softmax (Cert.Rewa.scoreK (Cert.Rewa.hdot sq sk)) i := by
  obtain ⟨u, r, j, rfl⟩ : ∃ (u : Fin 1) (r : Fin 512) (j : Fin 2048), y = ix3 u r j := ⟨y 0, y 1, y 2, eq_ix3 y⟩
  obtain ⟨b', n, j', rfl⟩ : ∃ (b' : Fin 8) (n : Fin 2048) (j' : Fin 2048), i = ix3 b' n j' := ⟨i 0, i 1, i 2, eq_ix3 i⟩
  have hb : b' = b := Fin.ext hi0
  have hj : j' = j := Fin.ext hi2
  subst hb hj
  rw [pay2_apply]
  exact pay1_block sq sk x0 x1 b' n r (fun k => h0 r k n hi1) h1 j'

/-- The same for the stored output block, the value block being all of batch element `b`. -/
theorem out_at (sq sk : Cert.Rewa.SBits.Idx → EReal) (vp : Cert.Rewa.SHead.Idx → EReal)
    (x0 : Vec Ideal S1x512x256 .bf16) (x1 : Vec Ideal S1x2048x256 .bf16) (x2 : Vec Ideal S1x2048x128 .f32)
    (b : Fin 8) (q : Nat)
    (h0 : ∀ (r : Fin 512) (k : Fin 256) (n : Fin 2048), n.val = q * 512 + r.val → x0 (ix3 0 r k) = sq (ix3 b n k))
    (h1 : ∀ (j : Fin 2048) (k : Fin 256), x1 (ix3 0 j k) = sk (ix3 b j k))
    (h2 : ∀ (j : Fin 2048) (h : Fin 128), x2 (ix3 0 j h) = vp (ix3 b j h))
    (y : S1x512x128.Idx) (i : Cert.Rewa.SHead.Idx) (hi0 : (i 0).val = b.val) (hi1 : (i 1).val = q * 512 + (y 1).val)
    (hi2 : (i 2).val = (y 2).val) :
    k1_pay3 (F := Ideal) x0 x1 x2 y
      = Cert.Rewa.mix (Cert.Rewa.softmax (Cert.Rewa.scoreK (Cert.Rewa.hdot sq sk))) vp i := by
  obtain ⟨u, r, h, rfl⟩ : ∃ (u : Fin 1) (r : Fin 512) (h : Fin 128), y = ix3 u r h := ⟨y 0, y 1, y 2, eq_ix3 y⟩
  obtain ⟨b', n, h', rfl⟩ : ∃ (b' : Fin 8) (n : Fin 2048) (h' : Fin 128), i = ix3 b' n h' := ⟨i 0, i 1, i 2, eq_ix3 i⟩
  have hb : b' = b := Fin.ext hi0
  have hh : h' = h := Fin.ext hi2
  subst hb hh
  rw [pay3_apply, mix_apply]
  refine Finset.sum_congr rfl fun j _ => ?_
  rw [pay1_block sq sk x0 x1 b' n r (fun k => h0 r k n hi1) h1 j, h2 j h']

variable (V : (c : Dev nD) → (b : Ref sig .tc) → Buf (Elt Ideal) ((c : Thread nD τ).loc b))

theorem hz3 : (![0, 0, 0] : Fin 3 → Nat) = fun _ => 0 := funext fun a => by fin_cases a <;> rfl

/-- The printed index maps, decided over the grid: the query block and both output blocks sit at block `(b, i, 0)`,
    the key and value blocks at `(b, 0, 0)`, with `b < 8` and `i < 4`. -/
theorem idx_facts : ∀ t : Fin cfg1.N,
    win1_0.index t (0 : Fin 3) = win1_3.index t (0 : Fin 3) ∧ win1_0.index t (1 : Fin 3) = win1_3.index t (1 : Fin 3)
    ∧ win1_0.index t (2 : Fin 3) = 0
    ∧ win1_1.index t (0 : Fin 3) = win1_3.index t (0 : Fin 3) ∧ win1_1.index t (1 : Fin 3) = 0 ∧ win1_1.index t (2 : Fin 3) = 0
    ∧ win1_2.index t (0 : Fin 3) = win1_3.index t (0 : Fin 3) ∧ win1_2.index t (1 : Fin 3) = 0 ∧ win1_2.index t (2 : Fin 3) = 0
    ∧ win1_4.index t (0 : Fin 3) = win1_3.index t (0 : Fin 3) ∧ win1_4.index t (1 : Fin 3) = win1_3.index t (1 : Fin 3)
    ∧ win1_4.index t (2 : Fin 3) = 0
    ∧ win1_3.index t (2 : Fin 3) = 0 ∧ win1_3.index t (0 : Fin 3) < 8 ∧ win1_3.index t (1 : Fin 3) < 4 :=
  (by decide +kernel : ∀ t : Fin grid1.N, _)

/-- Every block `(b, i, 0)` of an output is some point's. -/
theorem idx_onto3 : ∀ (q0 : Fin 8) (q1 : Fin 4), ∃ t : Fin cfg1.N, win1_3.index t = ![q0.val, q1.val, 0] :=
  (by decide +kernel : ∀ (q0 : Fin 8) (q1 : Fin 4), ∃ t : Fin grid1.N, win1_3.index t = ![q0.val, q1.val, 0])

/-- An element of the query block at point `t` is the array's element at block index × block size + its coordinate. -/
theorem iblk0_apply (c : Dev nD) (t : Fin cfg1.N) (x : S1x512x256.Idx) (k : S8x2048x256.Idx)
    (hk0 : (k 0).val = win1_0.index t (0 : Fin 3) * 1 + 1 * (x 0).val)
    (hk1 : (k 1).val = win1_0.index t (1 : Fin 3) * 512 + 1 * (x 1).val)
    (hk2 : (k 2).val = win1_0.index t (2 : Fin 3) * 256 + 1 * (x 2).val) :
    (iblk1 V c 0 t : Vec Ideal S1x512x256 .bf16) x = (V c main_v0_0 : S8x2048x256.Idx → EReal) k := by
  unfold iblk1
  rw [View.read_apply]
  show V c main_v0_0 _ = V c main_v0_0 _
  congr 1
  funext a
  apply Fin.ext
  match a with
  | ⟨0, _⟩ => show win1_0.index t (0 : Fin 3) * 1 + 1 * (x 0).val = (k 0).val; exact hk0.symm
  | ⟨1, _⟩ => show win1_0.index t (1 : Fin 3) * 512 + 1 * (x 1).val = (k 1).val; exact hk1.symm
  | ⟨2, _⟩ => show win1_0.index t (2 : Fin 3) * 256 + 1 * (x 2).val = (k 2).val; exact hk2.symm

/-- The same for the key block. -/
theorem iblk1_apply (c : Dev nD) (t : Fin cfg1.N) (x : S1x2048x256.Idx) (k : S8x2048x256.Idx)
    (hk0 : (k 0).val = win1_1.index t (0 : Fin 3) * 1 + 1 * (x 0).val)
    (hk1 : (k 1).val = win1_1.index t (1 : Fin 3) * 2048 + 1 * (x 1).val)
    (hk2 : (k 2).val = win1_1.index t (2 : Fin 3) * 256 + 1 * (x 2).val) :
    (iblk1 V c 1 t : Vec Ideal S1x2048x256 .bf16) x = (V c main_v0_1 : S8x2048x256.Idx → EReal) k := by
  unfold iblk1
  rw [View.read_apply]
  show V c main_v0_1 _ = V c main_v0_1 _
  congr 1
  funext a
  apply Fin.ext
  match a with
  | ⟨0, _⟩ => show win1_1.index t (0 : Fin 3) * 1 + 1 * (x 0).val = (k 0).val; exact hk0.symm
  | ⟨1, _⟩ => show win1_1.index t (1 : Fin 3) * 2048 + 1 * (x 1).val = (k 1).val; exact hk1.symm
  | ⟨2, _⟩ => show win1_1.index t (2 : Fin 3) * 256 + 1 * (x 2).val = (k 2).val; exact hk2.symm

/-- The same for the value block. -/
theorem iblk2_apply (c : Dev nD) (t : Fin cfg1.N) (x : S1x2048x128.Idx) (k : S8x2048x128.Idx)
    (hk0 : (k 0).val = win1_2.index t (0 : Fin 3) * 1 + 1 * (x 0).val)
    (hk1 : (k 1).val = win1_2.index t (1 : Fin 3) * 2048 + 1 * (x 1).val)
    (hk2 : (k 2).val = win1_2.index t (2 : Fin 3) * 128 + 1 * (x 2).val) :
    (iblk1 V c 2 t : Vec Ideal S1x2048x128 .f32) x = (V c main_v0_2 : S8x2048x128.Idx → EReal) k := by
  unfold iblk1
  rw [View.read_apply]
  show V c main_v0_2 _ = V c main_v0_2 _
  congr 1
  funext a
  apply Fin.ext
  match a with
  | ⟨0, _⟩ => show win1_2.index t (0 : Fin 3) * 1 + 1 * (x 0).val = (k 0).val; exact hk0.symm
  | ⟨1, _⟩ => show win1_2.index t (1 : Fin 3) * 2048 + 1 * (x 1).val = (k 1).val; exact hk1.symm
  | ⟨2, _⟩ => show win1_2.index t (2 : Fin 3) * 128 + 1 * (x 2).val = (k 2).val; exact hk2.symm

/-- WHAT POINT `t` WRITES BACK to the attention array is block `t` of the specification's attention weights. -/
theorem flushed3_eq (c : Dev nD) (t : Fin cfg1.N) :
    (dat1 (F := Ideal) V c).flushed 3 t
      = ((cfg1.win 3).blk t).view.read (Elt Ideal)
          (Cert.Rewa.softmax (Cert.Rewa.scoreK (Cert.Rewa.hdot (V c main_v0_0) (V c main_v0_1)))) := by
  show (cfg1.win 3).cut (grid1.coords t) ((dat1 V c).after 3 t) = _
  rw [after1_3]
  unfold out1_3
  rw [View.canon_unit_zero hz3]
  simp only [View.ld_unit_zero (S := S1x512x256) hz3, View.ld_unit_zero (S := S1x2048x256) hz3]
  obtain ⟨e00, e01, e02, e10, e11, e12, e20, e21, e22, e40, e41, e42, e32, l0, l1⟩ := idx_facts t
  funext y
  show k1_pay2 (iblk1 V c 0 t) (iblk1 V c 1 t) y
    = Cert.Rewa.softmax (Cert.Rewa.scoreK (Cert.Rewa.hdot (V c main_v0_0) (V c main_v0_1))) (((cfg1.win 3).blk t).view.emb y)
  refine attn_at (V c main_v0_0) (V c main_v0_1) _ _ ⟨win1_3.index t (0 : Fin 3), l0⟩ (win1_3.index t (1 : Fin 3))
    (fun r k n hn => iblk0_apply V c t (ix3 0 r k) (ix3 ⟨win1_3.index t (0 : Fin 3), l0⟩ n k) ?_ ?_ ?_)
    (fun j k => iblk1_apply V c t (ix3 0 j k) (ix3 ⟨win1_3.index t (0 : Fin 3), l0⟩ j k) ?_ ?_ ?_) y _ ?_ ?_ ?_
  · show win1_3.index t (0 : Fin 3) = win1_0.index t (0 : Fin 3) * 1 + 1 * 0; omega
  · show n.val = win1_0.index t (1 : Fin 3) * 512 + 1 * r.val; omega
  · show k.val = win1_0.index t (2 : Fin 3) * 256 + 1 * k.val; omega
  · show win1_3.index t (0 : Fin 3) = win1_1.index t (0 : Fin 3) * 1 + 1 * 0; omega
  · show j.val = win1_1.index t (1 : Fin 3) * 2048 + 1 * j.val; omega
  · show k.val = win1_1.index t (2 : Fin 3) * 256 + 1 * k.val; omega
  · show win1_3.index t (0 : Fin 3) * 1 + 1 * (y 0).val = win1_3.index t (0 : Fin 3)
    have hy : (y 0).val < 1 := (y 0).isLt
    omega
  · show win1_3.index t (1 : Fin 3) * 512 + 1 * (y 1).val = win1_3.index t (1 : Fin 3) * 512 + (y 1).val; omega
  · show win1_3.index t (2 : Fin 3) * 2048 + 1 * (y 2).val = (y 2).val; omega

/-- An index of the attention array is in point `t`'s block iff each coordinate is in the block's range on its axis. -/
theorem mem_blk3 (t : Fin cfg1.N) (i : S8x2048x2048.Idx) :
    i ∈ ((cfg1.win 3).blk t).view.set ↔ ∀ a : Fin 3, win1_3.index t a * S1x512x2048.size a ≤ (i a).val ∧ (i a).val < win1_3.index t a * S1x512x2048.size a + S1x512x2048.size a := by
  show i ∈ ((View.whole main_v1_0).slice (win1_3.rect t)).set ↔ _
  rw [View.set_slice_whole, Rect.mem_set_unit]
  exact Iff.rfl

/-- Every index of the attention array is in some point's block: row `n` of batch element `b` in block `(b, n / 512, 0)`. -/
theorem cover3 (i : S8x2048x2048.Idx) :
    ∃ t : Fin cfg1.N, (cfg1.win 3).flush t = true ∧ i ∈ ((cfg1.win 3).blk t).view.set := by
  have hi0 : (i 0).val < 8 := (i 0).isLt
  have hi1 : (i 1).val < 2048 := (i 1).isLt
  have hi2 : (i 2).val < 2048 := (i 2).isLt
  obtain ⟨t, ht⟩ := idx_onto3 ⟨(i 0).val, hi0⟩ ⟨(i 1).val / 512, by omega⟩
  have q0 : win1_3.index t (0 : Fin 3) = (i 0).val := congrFun ht 0
  have q1 : win1_3.index t (1 : Fin 3) = (i 1).val / 512 := congrFun ht 1
  have q2 : win1_3.index t (2 : Fin 3) = 0 := congrFun ht 2
  refine ⟨t, flush1_3 t, ?_⟩
  rw [mem_blk3]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 512 ≤ (i 1).val ∧ (i 1).val < win1_3.index t (1 : Fin 3) * 512 + 512; omega
  | ⟨2, _⟩ => show win1_3.index t (2 : Fin 3) * 2048 ≤ (i 2).val ∧ (i 2).val < win1_3.index t (2 : Fin 3) * 2048 + 2048; omega

theorem attn_arr (c : Dev nD) :
    (dat1 (F := Ideal) V c).arrAt 3 cfg1.N
      = Cert.Rewa.softmax (Cert.Rewa.scoreK (Cert.Rewa.hdot (V c main_v0_0) (V c main_v0_1))) :=
  (dat1 (F := Ideal) V c).arrAt_eq_of_cover 3 _ (fun t _ => flushed3_eq V c t) cover3

/-- WHAT POINT `t` WRITES BACK to the output array is block `t` of the specification's weighted sum of the value rows. -/
theorem flushed4_eq (c : Dev nD) (t : Fin cfg1.N) :
    (dat1 (F := Ideal) V c).flushed 4 t
      = ((cfg1.win 4).blk t).view.read (Elt Ideal)
          (Cert.Rewa.mix (Cert.Rewa.softmax (Cert.Rewa.scoreK (Cert.Rewa.hdot (V c main_v0_0) (V c main_v0_1)))) (V c main_v0_2)) := by
  show (cfg1.win 4).cut (grid1.coords t) ((dat1 V c).after 4 t) = _
  rw [after1_4]
  unfold out1_4
  rw [View.canon_unit_zero hz3]
  simp only [View.ld_unit_zero (S := S1x512x256) hz3, View.ld_unit_zero (S := S1x2048x256) hz3, View.ld_unit_zero (S := S1x2048x128) hz3]
  obtain ⟨e00, e01, e02, e10, e11, e12, e20, e21, e22, e40, e41, e42, e32, l0, l1⟩ := idx_facts t
  funext y
  show k1_pay3 (iblk1 V c 0 t) (iblk1 V c 1 t) (iblk1 V c 2 t) y
    = Cert.Rewa.mix (Cert.Rewa.softmax (Cert.Rewa.scoreK (Cert.Rewa.hdot (V c main_v0_0) (V c main_v0_1)))) (V c main_v0_2)
        (((cfg1.win 4).blk t).view.emb y)
  refine out_at (V c main_v0_0) (V c main_v0_1) (V c main_v0_2) _ _ _ ⟨win1_3.index t (0 : Fin 3), l0⟩ (win1_3.index t (1 : Fin 3))
    (fun r k n hn => iblk0_apply V c t (ix3 0 r k) (ix3 ⟨win1_3.index t (0 : Fin 3), l0⟩ n k) ?_ ?_ ?_)
    (fun j k => iblk1_apply V c t (ix3 0 j k) (ix3 ⟨win1_3.index t (0 : Fin 3), l0⟩ j k) ?_ ?_ ?_)
    (fun j h => iblk2_apply V c t (ix3 0 j h) (ix3 ⟨win1_3.index t (0 : Fin 3), l0⟩ j h) ?_ ?_ ?_) y _ ?_ ?_ ?_
  · show win1_3.index t (0 : Fin 3) = win1_0.index t (0 : Fin 3) * 1 + 1 * 0; omega
  · show n.val = win1_0.index t (1 : Fin 3) * 512 + 1 * r.val; omega
  · show k.val = win1_0.index t (2 : Fin 3) * 256 + 1 * k.val; omega
  · show win1_3.index t (0 : Fin 3) = win1_1.index t (0 : Fin 3) * 1 + 1 * 0; omega
  · show j.val = win1_1.index t (1 : Fin 3) * 2048 + 1 * j.val; omega
  · show k.val = win1_1.index t (2 : Fin 3) * 256 + 1 * k.val; omega
  · show win1_3.index t (0 : Fin 3) = win1_2.index t (0 : Fin 3) * 1 + 1 * 0; omega
  · show j.val = win1_2.index t (1 : Fin 3) * 2048 + 1 * j.val; omega
  · show h.val = win1_2.index t (2 : Fin 3) * 128 + 1 * h.val; omega
  · show win1_4.index t (0 : Fin 3) * 1 + 1 * (y 0).val = win1_3.index t (0 : Fin 3)
    have hy : (y 0).val < 1 := (y 0).isLt
    omega
  · show win1_4.index t (1 : Fin 3) * 512 + 1 * (y 1).val = win1_3.index t (1 : Fin 3) * 512 + (y 1).val; omega
  · show win1_4.index t (2 : Fin 3) * 128 + 1 * (y 2).val = (y 2).val; omega

/-- An index of the output array is in point `t`'s block iff each coordinate is in the block's range on its axis. -/
theorem mem_blk4 (t : Fin cfg1.N) (i : S8x2048x128.Idx) :
    i ∈ ((cfg1.win 4).blk t).view.set ↔ ∀ a : Fin 3, win1_4.index t a * S1x512x128.size a ≤ (i a).val ∧ (i a).val < win1_4.index t a * S1x512x128.size a + S1x512x128.size a := by
  show i ∈ ((View.whole main_v1_1).slice (win1_4.rect t)).set ↔ _
  rw [View.set_slice_whole, Rect.mem_set_unit]
  exact Iff.rfl

/-- Every index of the output array is in some point's block: row `n` of batch element `b` in block `(b, n / 512, 0)`. -/
theorem cover4 (i : S8x2048x128.Idx) :
    ∃ t : Fin cfg1.N, (cfg1.win 4).flush t = true ∧ i ∈ ((cfg1.win 4).blk t).view.set := by
  have hi0 : (i 0).val < 8 := (i 0).isLt
  have hi1 : (i 1).val < 2048 := (i 1).isLt
  have hi2 : (i 2).val < 128 := (i 2).isLt
  obtain ⟨t, ht⟩ := idx_onto3 ⟨(i 0).val, hi0⟩ ⟨(i 1).val / 512, by omega⟩
  have q0 : win1_3.index t (0 : Fin 3) = (i 0).val := congrFun ht 0
  have q1 : win1_3.index t (1 : Fin 3) = (i 1).val / 512 := congrFun ht 1
  obtain ⟨e00, e01, e02, e10, e11, e12, e20, e21, e22, e40, e41, e42, e32, l0, l1⟩ := idx_facts t
  refine ⟨t, flush1_4 t, ?_⟩
  rw [mem_blk4]
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 512 ≤ (i 1).val ∧ (i 1).val < win1_4.index t (1 : Fin 3) * 512 + 512; omega
  | ⟨2, _⟩ => show win1_4.index t (2 : Fin 3) * 128 ≤ (i 2).val ∧ (i 2).val < win1_4.index t (2 : Fin 3) * 128 + 128; omega

theorem out_arr (c : Dev nD) :
    (dat1 (F := Ideal) V c).arrAt 4 cfg1.N
      = Cert.Rewa.mix (Cert.Rewa.softmax (Cert.Rewa.scoreK (Cert.Rewa.hdot (V c main_v0_0) (V c main_v0_1)))) (V c main_v0_2) :=
  (dat1 (F := Ideal) V c).arrAt_eq_of_cover 4 _ (fun t _ => flushed4_eq V c t) cover4

end Cert.KernelIdeal.Region1

end
-- ==== Proof.KernelValue.lean ====
/-
  The kernel's two results as functions of the six argument arrays.

  The program runs two regions in sequence. The first leaves the encoded queries `signs Q Wq`, the encoded keys
  `signs K Wk` and the projected values `proj128 V Wv` in three intermediate arrays and touches nothing else; the
  second reads exactly those three arrays and leaves the attention weights `softmax (scoreK (hdot sq sk))` and the
  output `mix attn vp`. So the contents after the second region, read at the two result arrays, are the second
  region's functions applied to the first region's functions of the launch memory.
-/
import proofs.«414972_j84293028151338_3_alg».proof.Proof.Gen.KernelIdeal.Frame
import proofs.«414972_j84293028151338_3_alg».proof.Proof.Region0
import proofs.«414972_j84293028151338_3_alg».proof.Proof.Region1
import proofs.«414972_j84293028151338_3_alg».proof.Proof.Spec

noncomputable section

namespace Cert.KernelIdeal.KernelValue

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- After the first region the encoded-query array holds the sign bits of `Q · Wq`. -/
theorem sq_val (c : Dev nD) :
    V1 m ρ c main_v0_0
      = Cert.Rewa.signs (m ((c.tc : Thread nD τ).loc main_arg0)) (m ((c.tc : Thread nD τ).loc main_arg3)) :=
  (W1_arr m ρ c 6).trans (Cert.KernelIdeal.Region0.sq_arr (V0 m ρ) c)

/-- After the first region the encoded-key array holds the sign bits of `K · Wk`. -/
theorem sk_val (c : Dev nD) :
    V1 m ρ c main_v0_1
      = Cert.Rewa.signs (m ((c.tc : Thread nD τ).loc main_arg1)) (m ((c.tc : Thread nD τ).loc main_arg4)) :=
  (W1_arr m ρ c 7).trans (Cert.KernelIdeal.Region0.sk_arr (V0 m ρ) c)

/-- After the first region the projected-value array holds `V · Wv`. -/
theorem vp_val (c : Dev nD) :
    V1 m ρ c main_v0_2
      = Cert.Rewa.proj128 (m ((c.tc : Thread nD τ).loc main_arg2)) (m ((c.tc : Thread nD τ).loc main_arg5)) :=
  (W1_arr m ρ c 8).trans (Cert.KernelIdeal.Region0.vp_arr (V0 m ρ) c)

/-- The attention weights the program returns: the softmax of the kernel's score of the Hamming dot products. -/
theorem attn_val (c : Dev nD) :
    W2 m ρ c (Proc.devRef .tc main_v1_0)
      = Cert.Rewa.softmax (Cert.Rewa.scoreK (Cert.Rewa.hdot
          (Cert.Rewa.signs (m ((c.tc : Thread nD τ).loc main_arg0)) (m ((c.tc : Thread nD τ).loc main_arg3)))
          (Cert.Rewa.signs (m ((c.tc : Thread nD τ).loc main_arg1)) (m ((c.tc : Thread nD τ).loc main_arg4))))) := by
  refine (W2_arr m ρ c 3).trans ((Cert.KernelIdeal.Region1.attn_arr (V1 m ρ) c).trans ?_)
  rw [sq_val m ρ c, sk_val m ρ c]

/-- The output the program returns: the attention weights mixed with the projected values. -/
theorem out_val (c : Dev nD) :
    W2 m ρ c (Proc.devRef .tc main_v1_1)
      = Cert.Rewa.mix (Cert.Rewa.softmax (Cert.Rewa.scoreK (Cert.Rewa.hdot
          (Cert.Rewa.signs (m ((c.tc : Thread nD τ).loc main_arg0)) (m ((c.tc : Thread nD τ).loc main_arg3)))
          (Cert.Rewa.signs (m ((c.tc : Thread nD τ).loc main_arg1)) (m ((c.tc : Thread nD τ).loc main_arg4))))))
        (Cert.Rewa.proj128 (m ((c.tc : Thread nD τ).loc main_arg2)) (m ((c.tc : Thread nD τ).loc main_arg5))) := by
  refine (W2_arr m ρ c 4).trans ((Cert.KernelIdeal.Region1.out_arr (V1 m ρ) c).trans ?_)
  rw [sq_val m ρ c, sk_val m ρ c, vp_val m ρ c]

end Cert.KernelIdeal.KernelValue

end
-- ==== Proof.RefValue.lean ====
/-
  The reference program's two results are the specification's functions of the six argument arrays.

  Stage by stage, each read at one index: the two sign-bit arrays (a projection compared with the word of 0 and the
  select between the words of 1.0 and -1.0); their Hamming dot product (the contraction over the 256 bits, batched over
  the first axis); the score (2⁻¹ · (d + 256)) · 2⁻⁴; the row maximum (the fold of max from the word of -∞ over the key
  axis, joined once more with that word, which changes nothing); exp (score − row maximum); the row sum from the word
  of 0; the quotient; the value projection; the weighted sum over the key axis. Every float literal stays its word;
  only the zero word is evaluated, for the row sum's initial value.
-/
import proofs.«414972_j84293028151338_3_alg».proof.Proof.Gen.ReferenceIdeal.Run
import proofs.«414972_j84293028151338_3_alg».proof.Proof.Gen.ReferenceIdeal.Read
import proofs.«414972_j84293028151338_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefValue

open Idealize.ShloMosaic Idealize.ShloMosaic.TcCoe Idealize.SL.Sem Idealize.ShloMosaic.ValueIdx
open Cert.ReferenceIdeal Cert.ReferenceIdeal.Gen

variable (m : (ℓ : Loc nD τ sig) → Buf (Elt Ideal) ℓ)

/-! ## The reference's index maps are the coordinate constructors -/

/-- Row (b, n) of an input, entry k. -/
theorem lidx_v0_eq (i : S8x2048x256.Idx) (k : Fin 1024) :
    Read.lidx_main_v0 i k = (ix3 (i 0) (i 1) k : S8x2048x1024.Idx) :=
  funext fun a => Fin.ext (by match a with | ⟨0, _⟩ => rfl | ⟨1, _⟩ => rfl | ⟨2, _⟩ => rfl)

/-- Column c of a weight, entry k. -/
theorem ridx_v0_eq (i : S8x2048x256.Idx) (k : Fin 1024) :
    Read.ridx_main_v0 i k = (ix2 k (i 2) : S1024x256.Idx) :=
  funext fun a => Fin.ext (by match a with | ⟨0, _⟩ => rfl | ⟨1, _⟩ => rfl)

theorem lidx_v4_eq (i : S8x2048x256.Idx) (k : Fin 1024) :
    Read.lidx_main_v4 i k = (ix3 (i 0) (i 1) k : S8x2048x1024.Idx) :=
  funext fun a => Fin.ext (by match a with | ⟨0, _⟩ => rfl | ⟨1, _⟩ => rfl | ⟨2, _⟩ => rfl)

theorem ridx_v4_eq (i : S8x2048x256.Idx) (k : Fin 1024) :
    Read.ridx_main_v4 i k = (ix2 k (i 2) : S1024x256.Idx) :=
  funext fun a => Fin.ext (by match a with | ⟨0, _⟩ => rfl | ⟨1, _⟩ => rfl)

/-! ## The sign bits -/

/-- The query side: the compare-and-select of the projection against the word of 0 is the sign bit. -/
theorem signs_q (x0 : (⟨S8x2048x1024, .f32⟩ : BufTy).Contents (Elt Ideal)) (x3 : (⟨S1024x256, .f32⟩ : BufTy).Contents (Elt Ideal)) :
    Read.val_main_v3 (F := Ideal) x0 x3 = Cert.Rewa.signs x0 x3 := by
  funext i
  rw [Read.val_main_v3_apply, Read.val_main_v2_apply, Read.val_main_call0_v0_apply, Read.val_main_call0_v1_apply,
    Read.val_main_cst_0_apply, Read.val_main_cst_1_apply, Read.val_main_v1_apply, Read.val_main_cst_apply,
    Read.val_main_v0_apply]
  simp only [lidx_v0_eq, ridx_v0_eq, Ideal.cmpf_def, Ideal.ofBits_def]
  rfl

/-- The key side, the same operations on the second pair of arguments. -/
theorem signs_k (x1 : (⟨S8x2048x1024, .f32⟩ : BufTy).Contents (Elt Ideal)) (x4 : (⟨S1024x256, .f32⟩ : BufTy).Contents (Elt Ideal)) :
    Read.val_main_v7 (F := Ideal) x1 x4 = Cert.Rewa.signs x1 x4 := by
  funext i
  rw [Read.val_main_v7_apply, Read.val_main_v6_apply, Read.val_main_call1_v0_apply, Read.val_main_call1_v1_apply,
    Read.val_main_cst_3_apply, Read.val_main_cst_4_apply, Read.val_main_v5_apply, Read.val_main_cst_2_apply,
    Read.val_main_v4_apply]
  simp only [lidx_v4_eq, ridx_v4_eq, Ideal.cmpf_def, Ideal.ofBits_def]
  rfl

/-! ## The Hamming dot product and the score -/

theorem lidx_v8_eq (i : S8x2048x2048.Idx) (k : Fin 256) :
    Read.lidx_main_v8 i k = (ix3 (i 0) (i 1) k : S8x2048x256.Idx) :=
  funext fun a => Fin.ext (by match a with | ⟨0, _⟩ => rfl | ⟨1, _⟩ => rfl | ⟨2, _⟩ => rfl)

theorem ridx_v8_eq (i : S8x2048x2048.Idx) (k : Fin 256) :
    Read.ridx_main_v8 i k = (ix3 (i 0) (i 2) k : S8x2048x256.Idx) :=
  funext fun a => Fin.ext (by match a with | ⟨0, _⟩ => rfl | ⟨1, _⟩ => rfl | ⟨2, _⟩ => rfl)

/-- Entry (b, n, j) of the batched contraction is the sum over the 256 bits of query row n times key row j. -/
theorem hdot_eq (x0 x1 : (⟨S8x2048x1024, .f32⟩ : BufTy).Contents (Elt Ideal)) (x3 x4 : (⟨S1024x256, .f32⟩ : BufTy).Contents (Elt Ideal)) :
    Read.val_main_v8 (F := Ideal) x0 x1 x3 x4
      = Cert.Rewa.hdot (Cert.Rewa.signs x0 x3) (Cert.Rewa.signs x1 x4) := by
  funext i
  rw [Read.val_main_v8_apply, signs_q, signs_k]
  simp only [lidx_v8_eq, ridx_v8_eq]
  rfl

/-- The score as the reference spells it: 2⁻¹ times (the dot product plus 256), then times 2⁻⁴. -/
theorem score_eq (x0 x1 : (⟨S8x2048x1024, .f32⟩ : BufTy).Contents (Elt Ideal)) (x3 x4 : (⟨S1024x256, .f32⟩ : BufTy).Contents (Elt Ideal)) :
    Read.val_main_v14 (F := Ideal) x0 x1 x3 x4
      = Cert.Rewa.scoreR (Cert.Rewa.hdot (Cert.Rewa.signs x0 x3) (Cert.Rewa.signs x1 x4)) := by
  funext i
  rw [Read.val_main_v14_apply, Read.val_main_v13_apply, Read.val_main_cst_7_apply, Read.val_main_v12_apply,
    Read.val_main_v11_apply, Read.val_main_cst_6_apply, Read.val_main_v10_apply, Read.val_main_v9_apply,
    Read.val_main_cst_5_apply, hdot_eq]
  simp only [Ideal.mulf_def, Ideal.addf_def, Ideal.ofBits_def]
  rfl

/-! ## The row maximum -/

/-- The score once more, through the format change that is the identity. -/
theorem score15_eq (x0 x1 : (⟨S8x2048x1024, .f32⟩ : BufTy).Contents (Elt Ideal)) (x3 x4 : (⟨S1024x256, .f32⟩ : BufTy).Contents (Elt Ideal)) :
    Read.val_main_v15 (F := Ideal) x0 x1 x3 x4
      = Cert.Rewa.scoreR (Cert.Rewa.hdot (Cert.Rewa.signs x0 x3) (Cert.Rewa.signs x1 x4)) := by
  funext i
  rw [Read.val_main_v15_apply, score_eq]

theorem score20_eq (x0 x1 : (⟨S8x2048x1024, .f32⟩ : BufTy).Contents (Elt Ideal)) (x3 x4 : (⟨S1024x256, .f32⟩ : BufTy).Contents (Elt Ideal)) :
    Read.val_main_v20 (F := Ideal) x0 x1 x3 x4
      = Cert.Rewa.scoreR (Cert.Rewa.hdot (Cert.Rewa.signs x0 x3) (Cert.Rewa.signs x1 x4)) := by
  funext i
  rw [Read.val_main_v20_apply, score_eq]

/-- The reduced index (b, n) with coordinate k put back on the key axis is (b, n, k). -/
theorem lift_ix3 (h : S8x2048x2048.Reduces [2] S8x2048) (b : Fin 8) (n : Fin 2048) (k : Fin (S8x2048x2048.size 2)) :
    h.lift (ix2 b n) k = (ix3 b n (⟨k.val, k.isLt⟩ : Fin 2048) : S8x2048x2048.Idx) := by
  funext c; apply Fin.ext
  fin_cases c <;> rfl

/-- The reduce with a maximum body from the word of -∞ over the key axis, joined once more with that word, is the fold
    of max over the row: the initial value is below every fold that starts from it. -/
theorem reduce_max_row (s : (⟨S8x2048x2048, .f32⟩ : BufTy).Contents (Elt Ideal)) (b : Fin 8) (n : Fin 2048) :
    FloatOps.maximumf (F := Ideal) (φ := .f32) (Read.val_main_v17 (F := Ideal) (ix2 b n))
        (Host.reduce (FloatOps.maximumf (F := Ideal) (φ := .f32)) s (Read.val_main_cst_8 (F := Ideal)) reducesTo_S8x2048x2048_S8x2048_d2 h_S_ (ix2 b n))
      = Cert.Rewa.rowMax s b n := by
  have h : S8x2048x2048.Reduces [2] S8x2048 := by decide
  rw [Read.val_main_v17_apply, Read.val_main_cst_9_apply,
    Host.reduce_eq_fold_single (FloatOps.maximumf (F := Ideal) (φ := .f32)) s _ reducesTo_S8x2048x2048_S8x2048_d2 h h_S_, Read.val_main_cst_8_apply]
  have hf : (s ∘ h.lift (ix2 b n)) = fun k : Fin 2048 => s (ix3 b n k) :=
    funext fun k => congrArg s (lift_ix3 h b n k)
  rw [hf]
  show max (Ideal.ofBits .f32 0xFF800000#32)
      (Finset.fold max (Ideal.ofBits .f32 0xFF800000#32) (fun k : Fin 2048 => s (ix3 b n k)) Finset.univ)
    = Finset.fold max (Ideal.ofBits .f32 0xFF800000#32) (fun j : Fin 2048 => s (ix3 b n j)) Finset.univ
  exact max_eq_right ((Finset.le_fold_max _).2 (Or.inl le_rfl))

theorem rowMax_eq (x0 x1 : (⟨S8x2048x1024, .f32⟩ : BufTy).Contents (Elt Ideal)) (x3 x4 : (⟨S1024x256, .f32⟩ : BufTy).Contents (Elt Ideal))
    (b : Fin 8) (n : Fin 2048) :
    Read.val_main_v18 (F := Ideal) x0 x1 x3 x4 (ix2 b n)
      = Cert.Rewa.rowMax (Cert.Rewa.scoreR (Cert.Rewa.hdot (Cert.Rewa.signs x0 x3) (Cert.Rewa.signs x1 x4))) b n := by
  rw [Read.val_main_v18_apply]
  unfold Read.val_main_v16
  rw [score15_eq]
  exact reduce_max_row _ b n

/-! ## The exponentials, the row sums and the softmax -/

/-- The two keepdims broadcasts read the row maximum of (b, n, j) at (b, n). -/
theorem idx_v19_v21_eq (b : Fin 8) (n : Fin 2048) (j : Fin 2048) :
    Read.idx_main_v19 (Read.idx_main_v21 (ix3 b n j : S8x2048x2048.Idx)) = (ix2 b n : S8x2048.Idx) :=
  funext fun a => Fin.ext (by match a with | ⟨0, _⟩ => rfl | ⟨1, _⟩ => rfl)

/-- The two keepdims broadcasts read the row sum of (b, n, j) at (b, n). -/
theorem idx_v25_v26_eq (b : Fin 8) (n : Fin 2048) (j : Fin 2048) :
    Read.idx_main_v25 (Read.idx_main_v26 (ix3 b n j : S8x2048x2048.Idx)) = (ix2 b n : S8x2048.Idx) :=
  funext fun a => Fin.ext (by match a with | ⟨0, _⟩ => rfl | ⟨1, _⟩ => rfl)

/-- The row sum of (b, n) runs over the entries (b, n, k). -/
theorem idx_v24_eq (b : Fin 8) (n : Fin 2048) (k : Fin 2048) :
    Read.idx_main_v24 (ix2 b n : S8x2048.Idx) k = (ix3 b n k : S8x2048x2048.Idx) :=
  funext fun a => Fin.ext (by match a with | ⟨0, _⟩ => rfl | ⟨1, _⟩ => rfl | ⟨2, _⟩ => rfl)

/-- exp (score − row maximum). -/
theorem expo_eq (x0 x1 : (⟨S8x2048x1024, .f32⟩ : BufTy).Contents (Elt Ideal)) (x3 x4 : (⟨S1024x256, .f32⟩ : BufTy).Contents (Elt Ideal)) :
    Read.val_main_v23 (F := Ideal) x0 x1 x3 x4
      = Cert.Rewa.expo (Cert.Rewa.scoreR (Cert.Rewa.hdot (Cert.Rewa.signs x0 x3) (Cert.Rewa.signs x1 x4))) := by
  funext i
  obtain ⟨b, n, j, rfl⟩ : ∃ (b : Fin 8) (n : Fin 2048) (j : Fin 2048), i = ix3 b n j := ⟨i 0, i 1, i 2, eq_ix3 i⟩
  rw [Read.val_main_v23_apply, Read.val_main_v22_apply, Read.val_main_v21_apply, Read.val_main_v19_apply, score20_eq,
    idx_v19_v21_eq, rowMax_eq]
  simp only [Ideal.hostUnary_exp_def, Ideal.subf_def]
  rfl

/-- The sum of the exponentials of row (b, n): the initial value is the word of 0. -/
theorem rowSum_eq (x0 x1 : (⟨S8x2048x1024, .f32⟩ : BufTy).Contents (Elt Ideal)) (x3 x4 : (⟨S1024x256, .f32⟩ : BufTy).Contents (Elt Ideal))
    (b : Fin 8) (n : Fin 2048) :
    Read.val_main_v24 (F := Ideal) x0 x1 x3 x4 (ix2 b n)
      = ∑ j : Fin 2048, Cert.Rewa.expo (Cert.Rewa.scoreR (Cert.Rewa.hdot (Cert.Rewa.signs x0 x3) (Cert.Rewa.signs x1 x4))) (ix3 b n j) := by
  rw [Read.val_main_v24_apply, Read.val_main_cst_10_apply, expo_eq]
  simp only [idx_v24_eq, Ideal.ofBits_def, Ideal.ofBits_zero_f32, zero_add]

/-- The attention weights. -/
theorem softmax_eq (x0 x1 : (⟨S8x2048x1024, .f32⟩ : BufTy).Contents (Elt Ideal)) (x3 x4 : (⟨S1024x256, .f32⟩ : BufTy).Contents (Elt Ideal)) :
    Read.val_main_v27 (F := Ideal) x0 x1 x3 x4
      = Cert.Rewa.softmax (Cert.Rewa.scoreR (Cert.Rewa.hdot (Cert.Rewa.signs x0 x3) (Cert.Rewa.signs x1 x4))) := by
  funext i
  obtain ⟨b, n, j, rfl⟩ : ∃ (b : Fin 8) (n : Fin 2048) (j : Fin 2048), i = ix3 b n j := ⟨i 0, i 1, i 2, eq_ix3 i⟩
  rw [Read.val_main_v27_apply, Read.val_main_v26_apply, Read.val_main_v25_apply, idx_v25_v26_eq, rowSum_eq, expo_eq]
  simp only [Ideal.hostDivf_def]
  rfl

/-! ## The value projection and the weighted sum -/

theorem lidx_v28_eq (i : S8x2048x128.Idx) (k : Fin 1024) :
    Read.lidx_main_v28 i k = (ix3 (i 0) (i 1) k : S8x2048x1024.Idx) :=
  funext fun a => Fin.ext (by match a with | ⟨0, _⟩ => rfl | ⟨1, _⟩ => rfl | ⟨2, _⟩ => rfl)

theorem ridx_v28_eq (i : S8x2048x128.Idx) (k : Fin 1024) :
    Read.ridx_main_v28 i k = (ix2 k (i 2) : S1024x128.Idx) :=
  funext fun a => Fin.ext (by match a with | ⟨0, _⟩ => rfl | ⟨1, _⟩ => rfl)

/-- Row (b, n) of the weights, entry j. -/
theorem lidx_v29_eq (i : S8x2048x128.Idx) (k : Fin 2048) :
    Read.lidx_main_v29 i k = (ix3 (i 0) (i 1) k : S8x2048x2048.Idx) :=
  funext fun a => Fin.ext (by match a with | ⟨0, _⟩ => rfl | ⟨1, _⟩ => rfl | ⟨2, _⟩ => rfl)

/-- Value row j of the same batch element, column h. -/
theorem ridx_v29_eq (i : S8x2048x128.Idx) (k : Fin 2048) :
    Read.ridx_main_v29 i k = (ix3 (i 0) k (i 2) : S8x2048x128.Idx) :=
  funext fun a => Fin.ext (by match a with | ⟨0, _⟩ => rfl | ⟨1, _⟩ => rfl | ⟨2, _⟩ => rfl)

/-- The value projection. -/
theorem proj_v_eq (x2 : (⟨S8x2048x1024, .f32⟩ : BufTy).Contents (Elt Ideal)) (x5 : (⟨S1024x128, .f32⟩ : BufTy).Contents (Elt Ideal)) :
    Read.val_main_v28 (F := Ideal) x2 x5 = Cert.Rewa.proj128 x2 x5 := by
  funext i
  rw [Read.val_main_v28_apply]
  simp only [lidx_v28_eq, ridx_v28_eq]
  rfl

/-- The output: the attention weights of row (b, n) against the value rows of batch element b. -/
theorem mix_eq (x0 x1 x2 : (⟨S8x2048x1024, .f32⟩ : BufTy).Contents (Elt Ideal)) (x3 x4 : (⟨S1024x256, .f32⟩ : BufTy).Contents (Elt Ideal))
    (x5 : (⟨S1024x128, .f32⟩ : BufTy).Contents (Elt Ideal)) :
    Read.val_main_v29 (F := Ideal) x0 x1 x2 x3 x4 x5
      = Cert.Rewa.mix (Cert.Rewa.softmax (Cert.Rewa.scoreR (Cert.Rewa.hdot (Cert.Rewa.signs x0 x3) (Cert.Rewa.signs x1 x4))))
          (Cert.Rewa.proj128 x2 x5) := by
  funext i
  rw [Read.val_main_v29_apply, softmax_eq, proj_v_eq]
  simp only [lidx_v29_eq, ridx_v29_eq]
  rfl

/-! ## The reference's two results -/

theorem attn_eq (c : Dev nD) :
    Cert.ReferenceIdeal.Value.res_out1 (F := Ideal) m c
      = Cert.Rewa.softmax (Cert.Rewa.scoreR (Cert.Rewa.hdot
          (Cert.Rewa.signs (m ((c.tc : Thread nD τ).loc main_arg0)) (m ((c.tc : Thread nD τ).loc main_arg3)))
          (Cert.Rewa.signs (m ((c.tc : Thread nD τ).loc main_arg1)) (m ((c.tc : Thread nD τ).loc main_arg4))))) :=
  (Read.val_main_v27_eq (F := Ideal) m c).trans (softmax_eq _ _ _ _)

theorem out_eq (c : Dev nD) :
    Cert.ReferenceIdeal.Value.res_out0 (F := Ideal) m c
      = Cert.Rewa.mix (Cert.Rewa.softmax (Cert.Rewa.scoreR (Cert.Rewa.hdot
          (Cert.Rewa.signs (m ((c.tc : Thread nD τ).loc main_arg0)) (m ((c.tc : Thread nD τ).loc main_arg3)))
          (Cert.Rewa.signs (m ((c.tc : Thread nD τ).loc main_arg1)) (m ((c.tc : Thread nD τ).loc main_arg4))))))
        (Cert.Rewa.proj128 (m ((c.tc : Thread nD τ).loc main_arg2)) (m ((c.tc : Thread nD τ).loc main_arg5))) :=
  (Read.val_main_v29_eq (F := Ideal) m c).trans (mix_eq _ _ _ _ _ _)

end Cert.ReferenceIdeal.RefValue

end
-- ==== Proof.lean ====
/-
  The certificate of a two-call attention kernel over sign-bit encodings against its plain reference.

  Both programs encode queries and keys by the sign bits of a projection (`1` where the projected entry is positive,
  `-1` elsewhere), take the Hamming dot products of the encodings, turn them into attention weights by a softmax
  along the key axis, and mix the projected values with those weights. They differ in one place: the reference
  scores a dot product `d` as `(2⁻¹ · (d + 256)) · 2⁻⁴`, the kernel as `d · 2⁻⁵`. A dot product of sign bits is a
  real number, so the two scores differ by the constant 8 along every row, which the softmax does not see
  (Proof/Shift.lean). Everything else is the same sums of the same products over the extended reals, where a change
  of float format is the identity and a matrix product into a zero accumulator is the plain sum.

  The kernel's value: the run ends with the two result arrays at what the second region's write-backs leave
  (Proof/KernelRun.lean); the first region leaves the encodings and the projected values (Proof/Region0.lean), the
  second the softmax and the mix of what it finds (Proof/Region1.lean), and Proof/KernelValue.lean composes them.
  The reference's value: its run's result terms read one operation at a time (Proof/RefValue.lean).
  Proof/Spec.lean states the common mathematics once.

  The frames of the two kernel programs are the generated frame certificates, the reference's frame is its run with
  the results dropped, and nothing was rewritten by the idealization, so `preserves` is trivial.
-/
import proofs.«414972_j84293028151338_3_alg».proof.Defs
import proofs.«414972_j84293028151338_3_alg».proof.Proof.Gen.Kernel
import proofs.«414972_j84293028151338_3_alg».proof.Proof.Gen.Kernel.Skeleton
import proofs.«414972_j84293028151338_3_alg».proof.Proof.Gen.Kernel.Launch
import proofs.«414972_j84293028151338_3_alg».proof.Proof.Gen.Kernel.Points
import proofs.«414972_j84293028151338_3_alg».proof.Proof.Gen.Kernel.Frame
import proofs.«414972_j84293028151338_3_alg».proof.Proof.Gen.KernelIdeal
import proofs.«414972_j84293028151338_3_alg».proof.Proof.Gen.KernelIdeal.Skeleton
import proofs.«414972_j84293028151338_3_alg».proof.Proof.Gen.KernelIdeal.Launch
import proofs.«414972_j84293028151338_3_alg».proof.Proof.Gen.KernelIdeal.Points
import proofs.«414972_j84293028151338_3_alg».proof.Proof.Gen.KernelIdeal.Frame
import proofs.«414972_j84293028151338_3_alg».proof.Proof.Gen.ReferenceIdeal
import proofs.«414972_j84293028151338_3_alg».proof.Proof.Gen.ReferenceIdeal.Run
import proofs.«414972_j84293028151338_3_alg».proof.Proof.Gen.Pre_finite_inputs
import proofs.«414972_j84293028151338_3_alg».proof.Proof.Spec
import proofs.«414972_j84293028151338_3_alg».proof.Proof.Shift
import proofs.«414972_j84293028151338_3_alg».proof.Proof.KernelRun
import proofs.«414972_j84293028151338_3_alg».proof.Proof.KernelValue
import proofs.«414972_j84293028151338_3_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with its two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the six arguments both programs end with the output at
    `mix (softmax (scoreK (hdot sq sk))) vp` and the attention weights at `softmax (scoreK (hdot sq sk))`, where
    `sq`, `sk` are the encodings and `vp` the projected values of the arguments: the kernel by its run and the two
    regions' values, the reference by its run read back and the shift law. -/
theorem algebraic : Cert.algebraic_KernelIdeal_ReferenceIdeal := by
  intro m ρ m' ρ' _ hagree
  refine ⟨_, _, (θ_run Cert.KernelIdeal.defs _ _).mono (fun _ h c =>
      ⟨(h c).1.trans (Cert.KernelIdeal.KernelValue.out_val m ρ c),
       (h c).2.1.trans (Cert.KernelIdeal.KernelValue.attn_val m ρ c), (h c).2.2⟩)
      (Cert.KernelIdeal.Run.run_results (F := Ideal) m ρ), ?_⟩
  refine (θ_run Cert.ReferenceIdeal.defs _ _).mono (fun _ h c => ⟨(h c).1.trans ?_, (h c).2.1.trans ?_, (h c).2.2⟩)
    (Cert.ReferenceIdeal.Value.run (F := Ideal) m' ρ')
  · refine (Cert.ReferenceIdeal.RefValue.out_eq m' c).trans ?_
    rw [(hagree c).1, (hagree c).2.1, (hagree c).2.2.1, (hagree c).2.2.2.1, (hagree c).2.2.2.2.1, (hagree c).2.2.2.2.2,
      Cert.Rewa.softmax_shift _ (fun i => Cert.Rewa.hdot_signs_real _ _ _ _ i)]
  · refine (Cert.ReferenceIdeal.RefValue.attn_eq m' c).trans ?_
    rw [(hagree c).1, (hagree c).2.1, (hagree c).2.2.2.1, (hagree c).2.2.2.2.1,
      Cert.Rewa.softmax_shift _ (fun i => Cert.Rewa.hdot_signs_real _ _ _ _ i)]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
